-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S40960x512 : Shape := ⟨2, ![40960, 512]⟩
abbrev S512 : Shape := ⟨1, ![512]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S40960x512 : S_.BroadcastsInDim S40960x512 (![] : Fin 0 → Fin S40960x512.rank)
  reducesTo_S40960x512_S_d0_1 : S40960x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v15 : IVec S16384x32 1) (main_c_5 : IVec S_ 1) : IVec S_ 1 :=
  let main_v16 : IVec S_ 1 := (fun x v => Host.reduce IntOp.andi x v reducesTo_S16384x32_S_d0_1 h_S_) main_v15 main_c_5
  let main_v17 : IVec S_ 1 := andi main_v13 main_v16
  main_v17

def fn {F : FTy → Type} [FloatOps F] (main_arg0 : IVec S16384x32 32) (main_arg1 : FVec F S16384x32 .f32) (main_arg2 : FVec F S40960x512 .f32) (main_arg3 : FVec F S512 .f32) : IVec S_ 1 :=
  let main_v0 : FVec F S16384x32 .f32 := Host.absf main_arg1
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S40960x512 .f32 := Host.absf main_arg2
  let main_cst_0 : FVec F S_ .f32 := constant S_ .f32 0x7F800000#32
  let main_v5 : FVec F S40960x512 .f32 := broadcastInDim S40960x512 ![] bcast_S_S40960x512 main_cst_0
  let main_v6 : IVec S40960x512 1 := cmpf .olt main_v4 main_v5
  let main_c_1 : IVec S_ 1 := constantI S_ 1 1#1
  let main_v7 : IVec S_ 1 := (fun x v => Host.reduce IntOp.andi x v reducesTo_S40960x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_c_4 : IVec S_ 32 := constantI S_ 32 40960#32
  let main_v14 : IVec S16384x32 32 := broadcastInDim S16384x32 ![] bcast_S_S16384x32 main_c_4
  let main_v15 : IVec S16384x32 1 := cmpi .slt main_arg0 main_v14
  let main_c_5 : IVec S_ 1 := constantI S_ 1 1#1
  fn_part1 (F := F) main_v13 main_v15 main_c_5
-- ==== Kernel.lean ====
abbrev S16384x32 : Shape := ⟨2, ![16384, 32]⟩
abbrev S40960x512 : Shape := ⟨2, ![40960, 512]⟩
abbrev S512 : Shape := ⟨1, ![512]⟩
abbrev S16384x512 : Shape := ⟨2, ![16384, 512]⟩
abbrev S4096x32 : Shape := ⟨2, ![4096, 32]⟩
abbrev S512x512 : Shape := ⟨2, ![512, 512]⟩
abbrev S4096x512 : Shape := ⟨2, ![4096, 512]⟩
abbrev S1x512 : Shape := ⟨2, ![1, 512]⟩
abbrev S256x32 : Shape := ⟨2, ![256, 32]⟩
abbrev S256x512 : Shape := ⟨2, ![256, 512]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x32, .i32⟩
  | .hbm, ⟨1, _⟩ => ⟨S16384x32, .f32⟩
  | .hbm, ⟨2, _⟩ => ⟨S40960x512, .f32⟩
  | .hbm, ⟨3, _⟩ => ⟨S512, .f32⟩
  | .hbm, ⟨4, _⟩ => ⟨S40960x512, .bf16⟩
  | .hbm, ⟨5, _⟩ => ⟨S16384x512, .f32⟩
  | .local _ .vmem, ⟨0, _⟩ => ⟨S4096x32, .i32⟩
  | .local _ .vmem, ⟨1, _⟩ => ⟨S4096x32, .i32⟩
  | .local _ .vmem, ⟨2, _⟩ => ⟨S4096x32, .f32⟩
  | .local _ .vmem, ⟨3, _⟩ => ⟨S4096x32, .f32⟩
  | .local _ .vmem, ⟨4, _⟩ => ⟨S512x512, .bf16⟩
  | .local _ .vmem, ⟨5, _⟩ => ⟨S512x512, .bf16⟩
  | .local _ .vmem, ⟨6, _⟩ => ⟨S512, .f32⟩
  | .local _ .vmem, ⟨7, _⟩ => ⟨S4096x512, .f32⟩
  | .local _ .vmem, ⟨8, _⟩ => ⟨S4096x512, .f32⟩
  | _, _ => ⟨S16384x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 80], ![false, false]⟩

@[reducible] def k0_t1_loop : Scf.Loop 32 :=
  let c0_i32_2 : BitVec 32 := 0#32
  let c16_i32 : BitVec 32 := 16#32
  let v7 : BitVec 32 := Scalar.addi c0_i32_2 c16_i32
  let c1_i32 : BitVec 32 := 1#32
  ⟨c0_i32_2, v7, c1_i32⟩
def k0_mult1 (k0_t1 : Fin k0_t1_loop.trips) : BitVec 32 :=
  let c0_i32_2 : BitVec 32 := 0#32
  let c1_i32 : BitVec 32 := 1#32
  let arg7 : BitVec 32 := Scf.iv c0_i32_2 c1_i32 k0_t1
  let c256_i32 : BitVec 32 := 256#32
  let v11 : BitVec 32 := Scalar.muli arg7 c256_i32
  v11
def k0_off1 (k0_t1 : Fin k0_t1_loop.trips) : Fin 2 → Nat :=
  let c0_i32_2 : BitVec 32 := 0#32
  let c1_i32 : BitVec 32 := 1#32
  let arg7 : BitVec 32 := Scf.iv c0_i32_2 c1_i32 k0_t1
  let c256_i32 : BitVec 32 := 256#32
  let v11 : BitVec 32 := Scalar.muli arg7 c256_i32
  let v12 : BitVec 32 := v11
  let v13 : Index := Scalar.indexCast v12
  let c0_5 : Index := 0#32
  ![v13.toNat, 0]
def k0_off2 (k0_t1 : Fin k0_t1_loop.trips) : Fin 2 → Nat :=
  let c0_i32_2 : BitVec 32 := 0#32
  let c1_i32 : BitVec 32 := 1#32
  let arg7 : BitVec 32 := Scf.iv c0_i32_2 c1_i32 k0_t1
  let c256_i32 : BitVec 32 := 256#32
  let v11 : BitVec 32 := Scalar.muli arg7 c256_i32
  let v12 : BitVec 32 := v11
  let v474 : Index := Scalar.indexCast v12
  let c0_42 : Index := 0#32
  ![v474.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  iota_S1x512_d1_w32 : S1x512.Iotas .tc 32 [1]
  inb_S512x512_S512x512_0_0 : ∀ a, (![0, 0] : Fin 2 → Nat) a + S512x512.size a ≤ S512x512.size a
  h_S512x512 : 0 < S512x512.numel
  shapeCasts_S512x512_S512x512 : S512x512.ShapeCasts S512x512
  h_S256x32 : 0 < S256x32.numel
  natLt_1_32 : 1 < 32
  slices_S256x32_o0_0_S256x1 : S256x32.Slices ![0, 0] S256x1
  broadcasts_S256x1_S256x512 : S256x1.Broadcasts S256x512
  broadcasts_S1x512_S256x512 : S1x512.Broadcasts S256x512
  shapeCasts_S256x1_S256x1 : S256x1.ShapeCasts S256x1
  slices_S256x32_o0_1_S256x1 : S256x32.Slices ![0, 1] S256x1
  slices_S256x32_o0_2_S256x1 : S256x32.Slices ![0, 2] S256x1
  slices_S256x32_o0_3_S256x1 : S256x32.Slices ![0, 3] S256x1
  slices_S256x32_o0_4_S256x1 : S256x32.Slices ![0, 4] S256x1
  slices_S256x32_o0_5_S256x1 : S256x32.Slices ![0, 5] S256x1
  slices_S256x32_o0_6_S256x1 : S256x32.Slices ![0, 6] S256x1
  slices_S256x32_o0_7_S256x1 : S256x32.Slices ![0, 7] S256x1
  slices_S256x32_o0_8_S256x1 : S256x32.Slices ![0, 8] S256x1
  slices_S256x32_o0_9_S256x1 : S256x32.Slices ![0, 9] S256x1
  slices_S256x32_o0_10_S256x1 : S256x32.Slices ![0, 10] S256x1
  slices_S256x32_o0_11_S256x1 : S256x32.Slices ![0, 11] S256x1
  slices_S256x32_o0_12_S256x1 : S256x32.Slices ![0, 12] S256x1
  slices_S256x32_o0_13_S256x1 : S256x32.Slices ![0, 13] S256x1
  slices_S256x32_o0_14_S256x1 : S256x32.Slices ![0, 14] S256x1
  slices_S256x32_o0_15_S256x1 : S256x32.Slices ![0, 15] S256x1
  slices_S256x32_o0_16_S256x1 : S256x32.Slices ![0, 16] S256x1
  slices_S256x32_o0_17_S256x1 : S256x32.Slices ![0, 17] S256x1
  slices_S256x32_o0_18_S256x1 : S256x32.Slices ![0, 18] S256x1
  slices_S256x32_o0_19_S256x1 : S256x32.Slices ![0, 19] S256x1
  slices_S256x32_o0_20_S256x1 : S256x32.Slices ![0, 20] S256x1
  slices_S256x32_o0_21_S256x1 : S256x32.Slices ![0, 21] S256x1
  slices_S256x32_o0_22_S256x1 : S256x32.Slices ![0, 22] S256x1
  slices_S256x32_o0_23_S256x1 : S256x32.Slices ![0, 23] S256x1
  slices_S256x32_o0_24_S256x1 : S256x32.Slices ![0, 24] S256x1
  slices_S256x32_o0_25_S256x1 : S256x32.Slices ![0, 25] S256x1
  slices_S256x32_o0_26_S256x1 : S256x32.Slices ![0, 26] S256x1
  slices_S256x32_o0_27_S256x1 : S256x32.Slices ![0, 27] S256x1
  slices_S256x32_o0_28_S256x1 : S256x32.Slices ![0, 28] S256x1
  slices_S256x32_o0_29_S256x1 : S256x32.Slices ![0, 29] S256x1
  slices_S256x32_o0_30_S256x1 : S256x32.Slices ![0, 30] S256x1
  slices_S256x32_o0_31_S256x1 : S256x32.Slices ![0, 31] S256x1
  h_S256x512 : 0 < S256x512.numel
  shapeCasts_S256x512_S256x512 : S256x512.ShapeCasts S256x512
  shapeCasts_S4096x512_S4096x512 : S4096x512.ShapeCasts S4096x512
  inb_S512_S512_0 : ∀ a, (![0] : Fin 1 → Nat) a + S512.size a ≤ S512.size a
  h_S512 : 0 < S512.numel
  shapeCasts_S512_S1x512 : S512.ShapeCasts S1x512
  broadcasts_S1x512_S4096x512 : S1x512.Broadcasts S4096x512
  dot_S256x512_S512x512_S256x512_1_0_0_1_n_n_wf : DotDims.WF S256x512 S512x512 S256x512 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x32.size a ≤ S4096x32.size a
  k0_off2_inb : ∀ k0_t1 : Fin k0_t1_loop.trips, ∀ a, (k0_off2 k0_t1) a + S256x512.size a ≤ S4096x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S16384x32.size a
  hwx0_0 : ∀ i : grid0.Coords, EltTy.bits .i32 = 32 ∨ (Rect.block (s := S16384x32) S4096x32.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S16384x32.size a
  hwx0_1 : ∀ i : grid0.Coords, EltTy.bits .f32 = 32 ∨ (Rect.block (s := S16384x32) S4096x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S40960x512.size a
  hwx0_2 : ∀ i : grid0.Coords, EltTy.bits .bf16 = 32 ∨ (Rect.block (s := S40960x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S16384x512.size a
  hwx0_4 : ∀ i : grid0.Coords, EltTy.bits .f32 = 32 ∨ (Rect.block (s := S16384x512) S4096x512.size (cc0_transform_4 i) (hinb0_4 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_arg0) S4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4096x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x32 : Shape := ⟨2, ![16384, 32]⟩
abbrev S40960x512 : Shape := ⟨2, ![40960, 512]⟩
abbrev S512 : Shape := ⟨1, ![512]⟩
abbrev S_ : Shape := ⟨0, ![]⟩
abbrev S16384x32x1 : Shape := ⟨3, ![16384, 32, 1]⟩
abbrev S16384x32x512 : Shape := ⟨3, ![16384, 32, 512]⟩
abbrev S16384x512 : Shape := ⟨2, ![16384, 512]⟩
abbrev S1x512 : Shape := ⟨2, ![1, 512]⟩

abbrev nBuf : Space → Nat
  | .hbm => 29
  | .vmem => 0
  | .smem => 0
  | _ => 0

abbrev bufTy : (tb : Table) → Fin (tcTables nBuf tb) → BufTy
  | .hbm, ⟨0, _⟩ => ⟨S16384x32, .i32⟩
  | .hbm, ⟨1, _⟩ => ⟨S16384x32, .f32⟩
  | .hbm, ⟨2, _⟩ => ⟨S40960x512, .f32⟩
  | .hbm, ⟨3, _⟩ => ⟨S512, .f32⟩
  | .hbm, ⟨4, _⟩ => ⟨S_, .i32⟩
  | .hbm, ⟨5, _⟩ => ⟨S16384x32, .i32⟩
  | .hbm, ⟨6, _⟩ => ⟨S16384x32, .i1⟩
  | .hbm, ⟨7, _⟩ => ⟨S16384x32, .f32⟩
  | .hbm, ⟨8, _⟩ => ⟨S_, .i32⟩
  | .hbm, ⟨9, _⟩ => ⟨S16384x32, .i32⟩
  | .hbm, ⟨10, _⟩ => ⟨S16384x32, .i32⟩
  | .hbm, ⟨11, _⟩ => ⟨S_, .i32⟩
  | .hbm, ⟨12, _⟩ => ⟨S16384x32, .i32⟩
  | .hbm, ⟨13, _⟩ => ⟨S16384x32, .i1⟩
  | .hbm, ⟨14, _⟩ => ⟨S_, .i32⟩
  | .hbm, ⟨15, _⟩ => ⟨S16384x32, .i32⟩
  | .hbm, ⟨16, _⟩ => ⟨S16384x32, .i32⟩
  | .hbm, ⟨17, _⟩ => ⟨S16384x32, .i32⟩
  | .hbm, ⟨18, _⟩ => ⟨S16384x32x1, .i32⟩
  | .hbm, ⟨19, _⟩ => ⟨S16384x32x512, .f32⟩
  | .hbm, ⟨20, _⟩ => ⟨S16384x32, .f32⟩
  | .hbm, ⟨21, _⟩ => ⟨S16384x32x1, .f32⟩
  | .hbm, ⟨22, _⟩ => ⟨S16384x32x512, .f32⟩
  | .hbm, ⟨23, _⟩ => ⟨S16384x32x512, .f32⟩
  | .hbm, ⟨24, _⟩ => ⟨S_, .f32⟩
  | .hbm, ⟨25, _⟩ => ⟨S16384x512, .f32⟩
  | .hbm, ⟨26, _⟩ => ⟨S1x512, .f32⟩
  | .hbm, ⟨27, _⟩ => ⟨S16384x512, .f32⟩
  | .hbm, ⟨28, _⟩ => ⟨S16384x512, .f32⟩
  | _, _ => ⟨S16384x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  bcast_S16384x32x1_S16384x32x512_0_1_2 : S16384x32x1.BroadcastsInDim S16384x32x512 (![0, 1, 2] : Fin 3 → Fin S16384x32x512.rank)
  reducesTo_S16384x32x512_S16384x512_d1 : S16384x32x512.ReducesTo [1] S16384x512
  h_S_ : 0 < S_.numel
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  gather_S40960x512_S16384x32x1_S16384x32x512_2_0_n_n_0_2_1512_wf : GatherDims.WF S40960x512 S16384x32x1 S16384x32x512 [2] [0] [] [0] [] 2 ![1, 512]

variable [Facts₀]

def gather_S40960x512_S16384x32x1_S16384x32x512_2_0_n_n_0_2_1512 : GatherDims S40960x512 S16384x32x1 S16384x32x512 where
  offsetDims := [2]
  collapsedSliceDims := [0]
  operandBatchingDims := []
  startIndicesBatchingDims := []
  startIndexMap := [0]
  indexVectorDim := 2
  sliceSizes := ![1, 512]
  wf := gather_S40960x512_S16384x32x1_S16384x32x512_2_0_n_n_0_2_1512_wf

class Facts : Prop extends Facts₀ where

variable [Facts]
-- ==== Proof.Chunk.lean ====
/-
  One 256-row chunk of the kernel body, as arithmetic.

  For a chunk of 256 rows the body builds a "bag" `[256, 512]`: starting from zero, feature `f` (32 of them) adds, at
  row `r` and tile column `j`, the product `val r f * mask r f` when the clamped index `idx r f` minus the tile's first
  row equals `j` (as 32-bit words), and zero otherwise. The bag is then multiplied into the tile of the table
  (`[512, 512]`, a matrix product into a zero accumulator) and the product is added to what the output chunk held.
  The 32 steps are one function of the feature's number here (`term`), the bag after `n` features a recursion on `n`
  (`bag`), and both are read at an index over the extended reals.
-/
import proofs.«422430_j16441134809367_3_alg».proof.KernelIdeal
import Idealize.ShloMosaic.Lib.ValueIdx
import Idealize.ShloMosaic.Lib.Pipeline.Value
import Idealize.ShloMosaic.PureOps.Ideal.Laws

noncomputable section

namespace Cert.KernelIdeal.Chunk

open Idealize.ShloMosaic Idealize.ShloMosaic.ValueIdx Cert.KernelIdeal
open Cert.KernelIdeal.Facts₀ Cert.KernelIdeal.Facts

variable {F : FTy → Type} [FloatOps F] [Facts]

/-- Column `f` of a `[256, 32]` block is a `[256, 1]` slice of it. -/
theorem slicesCol (f : Fin 32) : S256x32.Slices ![0, f.val] S256x1 :=
  ⟨rfl, fun a => by
    have := f.isLt
    match a with
    | ⟨0, _⟩ => show 0 + 256 ≤ 256; omega
    | ⟨1, _⟩ => show f.val + 1 ≤ 32; omega⟩

/-- The mask of valid features: 1.0 where the index is non-negative, else 0.0. -/
def maskOf (idx : Vec F S256x32 .i32) : FVec F S256x32 .f32 :=
  sitofp .f32 (extui 32 (cmpi .sge idx (broadcast S256x32 0#32)) natLt_1_32)

/-- The index clamped below at zero. -/
def clampOf (idx : Vec F S256x32 .i32) : IVec S256x32 32 := maxsi idx (broadcast S256x32 0#32)

/-- Feature `f`'s contribution to the bag: its masked value where its index, less the tile's first row `k0`, meets the
    column number `cols`, zero elsewhere. -/
def term (k0 : BitVec 32) (cols : IVec S1x512 32) (x22 : IVec S256x32 32) (x16 x20 : FVec F S256x32 .f32) (f : Fin 32) :
    FVec F S256x512 .f32 :=
  select
    (cmpi .eq
      (broadcastTo S256x512 (subi (extractStridedSlice S256x1 ![0, f.val] x22 (slicesCol f)) (broadcast S256x1 k0))
        broadcasts_S256x1_S256x512)
      (broadcastTo S256x512 cols broadcasts_S1x512_S256x512))
    (broadcastTo S256x512
      (shapeCast S256x1
        (mulf (extractStridedSlice S256x1 ![0, f.val] x16 (slicesCol f)) (extractStridedSlice S256x1 ![0, f.val] x20 (slicesCol f)))
        shapeCasts_S256x1_S256x1)
      broadcasts_S256x1_S256x512)
    (broadcast S256x512 (Scalar.ofBits .f32 0x00000000#32))

/-- The bag after the first `n` features. -/
def bag (k0 : BitVec 32) (cols : IVec S1x512 32) (x22 : IVec S256x32 32) (x16 x20 : FVec F S256x32 .f32) :
    ℕ → FVec F S256x512 .f32
  | 0 => broadcast S256x512 (Scalar.ofBits .f32 0x00000000#32)
  | n + 1 => if h : n < 32 then addf (bag k0 cols x22 x16 x20 n) (term k0 cols x22 x16 x20 ⟨n, h⟩) else bag k0 cols x22 x16 x20 n

/-- What the body stores back into an output chunk that held `old`: `old` plus the bag (cast to bf16) times the tile. -/
def chunkVal (i : grid0.Coords) (tile : Vec F S512x512 .bf16) (idx : Vec F S256x32 .i32) (val : Vec F S256x32 .f32)
    (old : Vec F S256x512 .f32) : FVec F S256x512 .f32 :=
  addf (shapeCast S256x512 old shapeCasts_S256x512_S256x512)
    (matmul dot_S256x512_S512x512_S256x512_1_0_0_1_n_n none
      (truncf .bf16
        (bag (Scalar.muli (BitVec.ofNat 32 (i 1).val) 512#32) (iota .tc S1x512 32 [1] iota_S1x512_d1_w32) (clampOf idx) val (maskOf idx) 32)
        bitsLt_bf16_f32)
      (shapeCast S512x512 tile shapeCasts_S512x512_S512x512)
      (constant S256x512 .f32 0x00000000#32))

/-! ## Read at an index, over the extended reals -/

/-- One feature's contribution at row `r`, tile column `j`. -/
theorem term_apply (k0 : BitVec 32) (cols : IVec S1x512 32) (x22 : IVec S256x32 32) (x16 x20 : FVec Ideal S256x32 .f32)
    (f : Fin 32) (r : Fin 256) (j : Fin 512) :
    term k0 cols x22 x16 x20 f (ix2 r j)
      = if x22 (ix2 r f) - k0 = cols (ix2 0 j) then x16 (ix2 r f) * x20 (ix2 r f) else 0 := by
  have hb : ∀ {α : Type} (y : S256x1.Idx → α), broadcastTo S256x512 y broadcasts_S256x1_S256x512 (ix2 r j) = y (ix2 r 0) :=
    fun y => broadcastTo_apply y _ (ix2 r j) (ix2 r 0) (fun a => by match a with | ⟨0, _⟩ => rfl | ⟨1, _⟩ => rfl)
  have hb4 : broadcastTo S256x512 cols broadcasts_S1x512_S256x512 (ix2 r j) = cols (ix2 0 j) :=
    broadcastTo_apply cols _ (ix2 r j) (ix2 0 j) (fun a => by match a with | ⟨0, _⟩ => rfl | ⟨1, _⟩ => rfl)
  have hs : ∀ {α : Type} (y : S256x32.Idx → α),
      extractStridedSlice S256x1 ![0, f.val] y (slicesCol f) (ix2 r 0) = y (ix2 r f) :=
    fun y => extractStridedSlice_apply _ y _ (ix2 r 0) (ix2 r f) (fun a => by
      match a with
      | ⟨0, _⟩ => show r.val = 0 + r.val; omega
      | ⟨1, _⟩ => show f.val = f.val + 0; omega)
  unfold term
  rw [select_apply]
  show Scalar.select (IntOp.cmpi .eq (broadcastTo S256x512 (subi _ _) _ (ix2 r j)) (broadcastTo S256x512 cols _ (ix2 r j)))
    (broadcastTo S256x512 (shapeCast S256x1 _ _) _ (ix2 r j)) (Ideal.ofBits .f32 0x00000000#32) = _
  rw [hb, hb, hb4, shapeCast_self, Ideal.ofBits_zero_f32]
  show Scalar.select (IntOp.cmpi .eq (extractStridedSlice S256x1 ![0, f.val] x22 (slicesCol f) (ix2 r 0) - k0) (cols (ix2 0 j)))
    (extractStridedSlice S256x1 ![0, f.val] x16 (slicesCol f) (ix2 r 0) * extractStridedSlice S256x1 ![0, f.val] x20 (slicesCol f) (ix2 r 0)) 0 = _
  rw [hs, hs, hs]
  by_cases h : x22 (ix2 r f) - k0 = cols (ix2 0 j)
  · rw [if_pos h, h]
    show Scalar.select (BitVec.ofBool (cols (ix2 0 j) == cols (ix2 0 j))) _ _ = _
    rw [beq_self_eq_true]; exact select_one _ _
  · rw [if_neg h]
    show Scalar.select (BitVec.ofBool (x22 (ix2 r f) - k0 == cols (ix2 0 j))) _ _ = _
    rw [beq_eq_false_iff_ne.mpr h]; exact select_zero _ _

/-- The bag's entry after `n` features, as a recursion on extended reals. -/
def bagAt (k0 : BitVec 32) (cols : IVec S1x512 32) (x22 : IVec S256x32 32) (x16 x20 : FVec Ideal S256x32 .f32)
    (r : Fin 256) (j : Fin 512) : ℕ → EReal
  | 0 => 0
  | n + 1 => if h : n < 32 then
      bagAt k0 cols x22 x16 x20 r j n
        + (if x22 (ix2 r ⟨n, h⟩) - k0 = cols (ix2 0 j) then x16 (ix2 r ⟨n, h⟩) * x20 (ix2 r ⟨n, h⟩) else 0)
    else bagAt k0 cols x22 x16 x20 r j n

theorem bag_apply (k0 : BitVec 32) (cols : IVec S1x512 32) (x22 : IVec S256x32 32) (x16 x20 : FVec Ideal S256x32 .f32)
    (r : Fin 256) (j : Fin 512) : ∀ n, bag k0 cols x22 x16 x20 n (ix2 r j) = bagAt k0 cols x22 x16 x20 r j n
  | 0 => by
    show Ideal.ofBits .f32 0x00000000#32 = 0
    exact Ideal.ofBits_zero_f32
  | n + 1 => by
    rw [bag, bagAt]
    by_cases h : n < 32
    · rw [dif_pos h, dif_pos h, addf_apply, bag_apply k0 cols x22 x16 x20 r j n, term_apply]
    · rw [dif_neg h, dif_neg h]; exact bag_apply k0 cols x22 x16 x20 r j n

/-! ## The matrix product at an index

The bag `[256, 512]` times the tile `[512, 512]` contracts the bag's columns with the tile's rows: entry `(r, o)` is
the sum over `j` of `bag (r, j) * tile (j, o)`. -/

theorem contr_rank : dot_S256x512_S512x512_S256x512_1_0_0_1_n_n.contr.rank = 1 := rfl

theorem lhs_dot_0 (j : S256x512.Idx) (k : dot_S256x512_S512x512_S256x512_1_0_0_1_n_n.contr.Idx) :
    (dot_S256x512_S512x512_S256x512_1_0_0_1_n_n.lhsIdx j k 0 : ℕ) = j 0 := by
  simp [DotDims.lhsIdx, dot_S256x512_S512x512_S256x512_1_0_0_1_n_n]; rfl
theorem lhs_dot_1 (j : S256x512.Idx) (k : dot_S256x512_S512x512_S256x512_1_0_0_1_n_n.contr.Idx) :
    (dot_S256x512_S512x512_S256x512_1_0_0_1_n_n.lhsIdx j k 1 : ℕ) = k ⟨0, by rw [contr_rank]; exact Nat.one_pos⟩ := by
  simp [DotDims.lhsIdx, dot_S256x512_S512x512_S256x512_1_0_0_1_n_n]; rfl
theorem rhs_dot_0 (j : S256x512.Idx) (k : dot_S256x512_S512x512_S256x512_1_0_0_1_n_n.contr.Idx) :
    (dot_S256x512_S512x512_S256x512_1_0_0_1_n_n.rhsIdx j k 0 : ℕ) = k ⟨0, by rw [contr_rank]; exact Nat.one_pos⟩ := by
  simp [DotDims.rhsIdx, dot_S256x512_S512x512_S256x512_1_0_0_1_n_n]; rfl
theorem rhs_dot_1 (j : S256x512.Idx) (k : dot_S256x512_S512x512_S256x512_1_0_0_1_n_n.contr.Idx) :
    (dot_S256x512_S512x512_S256x512_1_0_0_1_n_n.rhsIdx j k 1 : ℕ) = j 1 := by
  simp [DotDims.rhsIdx, dot_S256x512_S512x512_S256x512_1_0_0_1_n_n]; rfl

theorem matmul_at (lhs : FVec Ideal S256x512 .bf16) (rhs : FVec Ideal S512x512 .bf16) (r : Fin 256) (o : Fin 512) :
    matmul dot_S256x512_S512x512_S256x512_1_0_0_1_n_n none lhs rhs (constant S256x512 .f32 0x00000000#32) (ix2 r o)
      = ∑ j : Fin 512, lhs (ix2 r j) * rhs (ix2 j o) := by
  simp only [matmul]
  rw [Ideal.matmul_constant_zero_apply,
    ← Equiv.sum_comp (contrEquiv1 dot_S256x512_S512x512_S256x512_1_0_0_1_n_n 512 rfl rfl).symm]
  refine Finset.sum_congr rfl fun j _ => ?_
  have e1 : dot_S256x512_S512x512_S256x512_1_0_0_1_n_n.lhsIdx (ix2 r o)
      ((contrEquiv1 dot_S256x512_S512x512_S256x512_1_0_0_1_n_n 512 rfl rfl).symm j) = ix2 r j := by
    funext a; apply Fin.ext
    match a with
    | ⟨0, _⟩ => exact lhs_dot_0 _ _
    | ⟨1, _⟩ => exact (lhs_dot_1 _ _).trans (contrEquiv1_symm_val _ 512 rfl rfl j)
  have e2 : dot_S256x512_S512x512_S256x512_1_0_0_1_n_n.rhsIdx (ix2 r o)
      ((contrEquiv1 dot_S256x512_S512x512_S256x512_1_0_0_1_n_n 512 rfl rfl).symm j) = ix2 j o := by
    funext a; apply Fin.ext
    match a with
    | ⟨0, _⟩ => exact (rhs_dot_0 _ _).trans (contrEquiv1_symm_val _ 512 rfl rfl j)
    | ⟨1, _⟩ => exact rhs_dot_1 _ _
  rw [e1, e2]

/-- THE CHUNK AT AN INDEX: what the chunk held, plus the bag's row `r` against the tile's column `o`. -/
theorem chunkVal_apply (i : grid0.Coords) (tile : Vec Ideal S512x512 .bf16) (idx : Vec Ideal S256x32 .i32)
    (val : Vec Ideal S256x32 .f32) (old : Vec Ideal S256x512 .f32) (r : Fin 256) (o : Fin 512) :
    chunkVal i tile idx val old (ix2 r o)
      = old (ix2 r o) + ∑ j : Fin 512,
          bagAt (Scalar.muli (BitVec.ofNat 32 (i 1).val) 512#32) (iota .tc S1x512 32 [1] iota_S1x512_d1_w32)
            (clampOf idx) val (maskOf idx) r j 32 * tile (ix2 j o) := by
  unfold chunkVal
  rw [addf_apply, shapeCast_self, matmul_at]
  refine congrArg (fun z => old (ix2 r o) + z) (Finset.sum_congr rfl fun j _ => ?_)
  rw [truncf_apply, bag_apply, shapeCast_self]

end Cert.KernelIdeal.Chunk

end
-- ==== Proof.LibTilesMiss.lean ====
/-
  A general fact about a list of equal-sized tile stores (Lib/WritesUnit.lean's `View.tilePieces`): an index that, on
  one axis, lies outside every one of the first `j` tiles reads, after those `j` stores, what the buffer held before.
  (The library's `View.read_tilePieces` is the complementary reading: an index inside one tile and outside the others.)
-/
import Idealize.ShloMosaic.Lib.WritesUnit

namespace Cert.LibTiles

open Idealize.ShloMosaic

variable {sig : RefSig} {κ : Kind} {sp : Space} {s : Shape} {e : EltTy} {Val : EltTy → Type} {NT : ℕ}

/-- An index that misses each of the first `j` tiles on axis `ax` is untouched by their stores. -/
theorem read_tilePieces_of_miss (v : View sig κ sp s e) (f : v.ty.Contents Val) (tsz : Fin s.rank → ℕ)
    (off : Fin NT → Fin s.rank → ℕ) (inb : ∀ i a, off i a + tsz a ≤ s.size a)
    (P : Fin NT → (⟨s.rank, tsz⟩ : Shape).Idx → Val e) (j : ℕ) (hj : j ≤ NT) (y : s.Idx) (ax : Fin s.rank)
    (hmiss : ∀ i : Fin NT, i.val < j → (y ax).val < off i ax ∨ off i ax + tsz ax ≤ (y ax).val) :
    v.read Val (v.writes Val f (View.tilePieces tsz off inb P j hj)) y = v.read Val f y := by
  induction j with
  | zero => rfl
  | succ j ih =>
    rw [View.tilePieces_succ,
      View.read_writes_cons_unit_of_not_mem v f (inb ⟨j, hj⟩) (P ⟨j, hj⟩) _ y rfl ax (hmiss ⟨j, hj⟩ (Nat.lt_succ_self j))]
    exact ih (Nat.le_of_succ_le hj) fun i hi => hmiss i (Nat.lt_succ_of_lt hi)

end Cert.LibTiles
-- ==== Proof.Trip.lean ====
/-
  The in-kernel loop over the sixteen 256-row chunks of a 4096-row block, as values.

  Trip `k` loads rows `[256 k, 256 k + 256)` of the index block, of the value block and of the output block, and stores
  back into those rows of the output block what `Chunk.chunkVal` makes of them. The trips write disjoint rows, so what
  trip `k` finds in its rows is what the block held when the loop was entered, and the list of stores after `n` trips
  is a list of `n` tiles kept apart by their rows.
-/
import proofs.«422430_j16441134809367_3_alg».proof.Proof.Gen.KernelIdeal.Loops
import proofs.«422430_j16441134809367_3_alg».proof.Proof.Chunk
import Idealize.ShloMosaic.Lib.Tactic
import Idealize.ShloMosaic.Lib.WritesUnit
import Idealize.ShloMosaic.Lib.Pipeline.FrameBody
import proofs.«422430_j16441134809367_3_alg».proof.Proof.LibTilesMiss

set_option maxRecDepth 8192

noncomputable section

namespace Cert.KernelIdeal.Trip

open Idealize.ShloMosaic Idealize.ShloMosaic.TcCoe Idealize.ShloMosaic.Tactic Idealize.SL.Sem
open Idealize.ShloMosaic.ValueIdx
open Cert.KernelIdeal Cert.KernelIdeal.Gen Cert.KernelIdeal.Chunk
open Cert.KernelIdeal.Facts₀ Cert.KernelIdeal.Facts

variable {F : FTy → Type} [FloatOps F]

/-- The rows of the index and value blocks trip `k` loads, -/
abbrev inRect (k : Fin k0_t1_loop.trips) : Rect S4096x32 := Rect.unit (k0_off1 k) S256x32.size (Facts₀.k0_off1_inb k)
/-- and the rows of the output block it loads and stores. -/
abbrev outRect (k : Fin k0_t1_loop.trips) : Rect S4096x512 := Rect.unit (k0_off2 k) S256x512.size (Facts₀.k0_off2_inb k)

set_option maxHeartbeats 1600000 in
/-- ONE TRIP: its one store, at its rows of the output block, of the chunk's value of the three loaded chunks. -/
theorem tripL_eq (𝒱 : Variants) (c : Dev nD) (bd : Option 𝒱.V) (i : grid0.Coords) (arg2 : Memref sig .tc .vmem S4096x32 .i32) (harg2 : arg2.IsWhole) (arg3 : Memref sig .tc .vmem S4096x32 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S4096x512 .f32) (harg6 : arg6.IsWhole) (v5 : Vec F S512x512 .bf16) (X_arg2 : BufTy.Contents (Elt F) arg2.view.ty) (X_arg3 : BufTy.Contents (Elt F) arg3.view.ty) (k : Fin k0_t1_loop.trips) (f : BufTy.Contents (Elt F) arg6.view.ty) :
    tripL_k0_t1 (F := F) 𝒱 c bd i arg2 harg2 arg3 harg3 arg4 harg4 arg5 harg5 arg6 harg6 (Scalar.muli (BitVec.ofNat 32 (i 1).val) 512#32) (iota .tc S1x512 32 [1] Facts₀.iota_S1x512_d1_w32) v5 X_arg2 X_arg3 k f
      = [⟨outRect k,
          chunkVal i v5 (View.readAt (Elt F) arg2.view (inRect k).toLoadRect X_arg2)
            (View.readAt (Elt F) arg3.view (inRect k).toLoadRect X_arg3)
            (View.readAt (Elt F) arg6.view (outRect k).toLoadRect f)⟩] := by
  unfold tripL_k0_t1 trip_k0_t1
  dsimp only
  sl_unfold_words
  rfl

/-- The loop makes sixteen trips. -/
theorem trips_eq : k0_t1_loop.trips = 16 := by decide +kernel

/-- Tile `k`'s value over the contents `G` the output block held at loop entry. -/
def tileVal (i : grid0.Coords) (arg2 : Memref sig .tc .vmem S4096x32 .i32) (arg3 : Memref sig .tc .vmem S4096x32 .f32)
    (arg6 : Memref sig .tc .vmem S4096x512 .f32) (v5 : Vec F S512x512 .bf16) (X_arg2 : BufTy.Contents (Elt F) arg2.view.ty)
    (X_arg3 : BufTy.Contents (Elt F) arg3.view.ty) (G : BufTy.Contents (Elt F) arg6.view.ty) (k : Fin k0_t1_loop.trips) :
    (⟨S4096x512.rank, S256x512.size⟩ : Shape).Idx → Elt F .f32 :=
  chunkVal i v5 (View.readAt (Elt F) arg2.view (inRect k).toLoadRect X_arg2)
    (View.readAt (Elt F) arg3.view (inRect k).toLoadRect X_arg3)
    (View.readAt (Elt F) arg6.view (outRect k).toLoadRect G)

/-- What trip `k` finds in its rows after the first `n ≤ k` tiles were stored is what the block held at loop entry:
    those tiles lie in earlier rows. -/
theorem readAt_outRect_tiles (arg6 : Memref sig .tc .vmem S4096x512 .f32) (G : BufTy.Contents (Elt F) arg6.view.ty)
    (P : Fin k0_t1_loop.trips → (⟨S4096x512.rank, S256x512.size⟩ : Shape).Idx → Elt F .f32)
    (n : ℕ) (hn : n ≤ k0_t1_loop.trips) (k : Fin k0_t1_loop.trips) (hk : n ≤ k.val) :
    View.readAt (Elt F) arg6.view (outRect k).toLoadRect
        (arg6.view.writes (Elt F) G (View.tilePieces (s := S4096x512) S256x512.size k0_off2 Facts₀.k0_off2_inb P n hn))
      = View.readAt (Elt F) arg6.view (outRect k).toLoadRect G := by
  have e : ∀ g, View.readAt (Elt F) arg6.view (outRect k).toLoadRect g = View.ld (arg6.view.read (Elt F) g) (outRect k) :=
    fun g => View.readAt_eq_ld _ _ _
  rw [e, e]
  funext x
  show arg6.view.read (Elt F) _ ((outRect k).idx x) = arg6.view.read (Elt F) G ((outRect k).idx x)
  refine Cert.LibTiles.read_tilePieces_of_miss arg6.view G _ _ _ P n hn _ (0 : Fin 2) fun i' hi' => Or.inr ?_
  have h1 : k0_off2 i' (0 : Fin 2) = 256 * i'.val := by rw [k0_off2_eq i']; rfl
  have h2 : (((outRect k).idx x) (0 : Fin 2)).val = 256 * k.val + 1 * (x (0 : Fin 2)).val := by
    show k0_off2 k (0 : Fin 2) + 1 * (x (0 : Fin 2)).val = _
    rw [k0_off2_eq k]; rfl
  rw [h1, h2]
  show 256 * i'.val + 256 ≤ _
  omega

/-- THE LOOP'S STORES AS TILES: after `n` trips from contents `G`, tile `k < n` at rows `[256 k, 256 k + 256)` carrying
    `tileVal G k`, newest first. -/
theorem pb_eq_tiles (𝒱 : Variants) (c : Dev nD) (bd : Option 𝒱.V) (i : grid0.Coords) (arg2 : Memref sig .tc .vmem S4096x32 .i32) (harg2 : arg2.IsWhole) (arg3 : Memref sig .tc .vmem S4096x32 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S4096x512 .f32) (harg6 : arg6.IsWhole) (v5 : Vec F S512x512 .bf16) (X_arg2 : BufTy.Contents (Elt F) arg2.view.ty) (X_arg3 : BufTy.Contents (Elt F) arg3.view.ty) (G : BufTy.Contents (Elt F) arg6.view.ty) :
    ∀ (n : ℕ) (hn : n ≤ k0_t1_loop.trips),
      pb_k0_t1 (F := F) 𝒱 c bd i arg2 harg2 arg3 harg3 arg4 harg4 arg5 harg5 arg6 harg6 (Scalar.muli (BitVec.ofNat 32 (i 1).val) 512#32) (iota .tc S1x512 32 [1] Facts₀.iota_S1x512_d1_w32) v5 X_arg2 X_arg3 G n
        = View.tilePieces (s := S4096x512) S256x512.size k0_off2 Facts₀.k0_off2_inb (tileVal i arg2 arg3 arg6 v5 X_arg2 X_arg3 G) n hn
  | 0, _ => rfl
  | n + 1, hn => by
    refine (pb_k0_t1_succ (F := F) 𝒱 c bd i arg2 harg2 arg3 harg3 arg4 harg4 arg5 harg5 arg6 harg6 (Scalar.muli (BitVec.ofNat 32 (i 1).val) 512#32) (iota .tc S1x512 32 [1] Facts₀.iota_S1x512_d1_w32) v5 X_arg2 X_arg3 G ⟨n, hn⟩).trans ?_
    show tripL_k0_t1 (F := F) 𝒱 c bd i arg2 harg2 arg3 harg3 arg4 harg4 arg5 harg5 arg6 harg6 (Scalar.muli (BitVec.ofNat 32 (i 1).val) 512#32) (iota .tc S1x512 32 [1] Facts₀.iota_S1x512_d1_w32) v5 X_arg2 X_arg3 ⟨n, hn⟩
        (arg6.view.writes (Elt F) G (pb_k0_t1 (F := F) 𝒱 c bd i arg2 harg2 arg3 harg3 arg4 harg4 arg5 harg5 arg6 harg6 (Scalar.muli (BitVec.ofNat 32 (i 1).val) 512#32) (iota .tc S1x512 32 [1] Facts₀.iota_S1x512_d1_w32) v5 X_arg2 X_arg3 G n))
      ++ pb_k0_t1 (F := F) 𝒱 c bd i arg2 harg2 arg3 harg3 arg4 harg4 arg5 harg5 arg6 harg6 (Scalar.muli (BitVec.ofNat 32 (i 1).val) 512#32) (iota .tc S1x512 32 [1] Facts₀.iota_S1x512_d1_w32) v5 X_arg2 X_arg3 G n = _
    rw [pb_eq_tiles 𝒱 c bd i arg2 harg2 arg3 harg3 arg4 harg4 arg5 harg5 arg6 harg6 v5 X_arg2 X_arg3 G n (Nat.le_of_succ_le hn), tripL_eq, View.tilePieces_succ,
      readAt_outRect_tiles arg6 G _ n _ ⟨n, hn⟩ (Nat.le_refl n)]
    rfl

/-- READING THE LOOP'S RESULT: through any view of the block, over any earlier contents, row `256 q + r` (column `o`) after
    the sixteen trips holds tile `q`'s value at `(r, o)`. -/
theorem read_loop (𝒱 : Variants) (c : Dev nD) (bd : Option 𝒱.V) (i : grid0.Coords) (arg2 : Memref sig .tc .vmem S4096x32 .i32) (harg2 : arg2.IsWhole) (arg3 : Memref sig .tc .vmem S4096x32 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S4096x512 .f32) (harg6 : arg6.IsWhole) (v5 : Vec F S512x512 .bf16) (X_arg2 : BufTy.Contents (Elt F) arg2.view.ty) (X_arg3 : BufTy.Contents (Elt F) arg3.view.ty) (G : BufTy.Contents (Elt F) arg6.view.ty)
    {sp : Space} (v : View sig .tc sp S4096x512 .f32) (f : v.ty.Contents (Elt F)) (q : Fin k0_t1_loop.trips) (r : Fin 256) (o : Fin 512)
    (y : S4096x512.Idx) (hy0 : (y (0 : Fin 2)).val = 256 * q.val + r.val) (hy1 : (y (1 : Fin 2)).val = o.val) :
    v.read (Elt F) (v.writes (Elt F) f (pb_k0_t1 (F := F) 𝒱 c bd i arg2 harg2 arg3 harg3 arg4 harg4 arg5 harg5 arg6 harg6 (Scalar.muli (BitVec.ofNat 32 (i 1).val) 512#32) (iota .tc S1x512 32 [1] Facts₀.iota_S1x512_d1_w32) v5 X_arg2 X_arg3 G k0_t1_loop.trips)) y
      = tileVal i arg2 arg3 arg6 v5 X_arg2 X_arg3 G q (ix2 r o) := by
  rw [pb_eq_tiles 𝒱 c bd i arg2 harg2 arg3 harg3 arg4 harg4 arg5 harg5 arg6 harg6 v5 X_arg2 X_arg3 G k0_t1_loop.trips (Nat.le_refl _)]
  refine View.read_tilePieces v f S256x512.size k0_off2 Facts₀.k0_off2_inb _ _ (Nat.le_refl _) y q q.isLt (ix2 r o)
    (fun a => ?_) (0 : Fin 2) (fun i' hi' => ?_)
  · rw [k0_off2_eq q]
    match a with
    | ⟨0, _⟩ => exact hy0
    | ⟨1, _⟩ => show (y (1 : Fin 2)).val = 0 + o.val; omega
  · rw [k0_off2_eq i']
    show (y (0 : Fin 2)).val < 256 * i'.val ∨ 256 * i'.val + 256 ≤ (y (0 : Fin 2)).val
    have hne : i'.val ≠ q.val := fun h => hi' (Fin.ext h)
    have := r.isLt
    omega

end Cert.KernelIdeal.Trip

end
-- ==== Proof.Cases.lean ====
/-
  What each of the body's three cases leaves in the output block, read at a row.

  The grid's second axis runs over the 80 tiles of the table. At its first point the body zeroes the output block and
  adds the tile's product to it (case A); at a middle point it adds the tile's product to what the point before left
  (case B); at the last point it does the same and then adds the bias row (case C). "The tile's product" at row
  `256 q + r`, column `o`, is the bag of chunk `q`'s row `r` against column `o` of the tile (`pointTerm`).
-/
import proofs.«422430_j16441134809367_3_alg».proof.Proof.KernelIdealFrame
import proofs.«422430_j16441134809367_3_alg».proof.Proof.Trip
import Idealize.ShloMosaic.Lib.Pipeline.Value

set_option maxRecDepth 16384

noncomputable section

namespace Cert.KernelIdeal.Cases

open Idealize.ShloMosaic Idealize.ShloMosaic.TcCoe Idealize.ShloMosaic.Tactic Idealize.SL.Sem
open Idealize.ShloMosaic.ValueIdx
open Cert.KernelIdeal Cert.KernelIdeal.Gen Cert.KernelIdeal.GenP Cert.KernelIdeal.Chunk Cert.KernelIdeal.Trip

/-! ## The stores each case's run found -/

theorem list_B (c : Dev nD) (i : grid0.Coords) (arg2 : Memref sig .tc .vmem S4096x32 .i32) (harg2 : arg2.IsWhole) (arg3 : Memref sig .tc .vmem S4096x32 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S4096x512 .f32) (harg6 : arg6.IsWhole) (hc0 : ¬cond0_0 i) (hc1 : ¬cond0_1 i) (x0 : Vec Ideal S4096x32 .i32) (x1 : Vec Ideal S4096x32 .f32) (x2 : Vec Ideal S512x512 .bf16) (x3 : Vec Ideal S512 .f32) (xo4 : Vec Ideal S4096x512 .f32) :
    (kernelRun0_B (F := Ideal) c i arg2 harg2 arg3 harg3 arg4 harg4 arg5 harg5 arg6 harg6 hc0 hc1 x0 x1 x2 x3 xo4).1
      = pb_k0_t1 (F := Ideal) Variants.none c none i arg2 harg2 arg3 harg3 arg4 harg4 arg5 harg5 arg6 harg6 (Scalar.muli (BitVec.ofNat 32 (i 1).val) 512#32) (iota .tc S1x512 32 [1] Facts₀.iota_S1x512_d1_w32)
        (View.readAt (Elt Ideal) arg4.view (Rect.unit (s := S512x512) ![0, 0] S512x512.size Facts₀.inb_S512x512_S512x512_0_0).toLoadRect (harg4.unread x2))
        (harg2.unread x0) (harg3.unread x1) (harg6.unread xo4) k0_t1_loop.trips := by
  unfold kernelRun0_B
  dsimp only
  all_goals (sl_unfold_words; try rfl)

theorem list_A (c : Dev nD) (i : grid0.Coords) (arg2 : Memref sig .tc .vmem S4096x32 .i32) (harg2 : arg2.IsWhole) (arg3 : Memref sig .tc .vmem S4096x32 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S4096x512 .f32) (harg6 : arg6.IsWhole) (hc0 : cond0_0 i) (hc1 : ¬cond0_1 i) (x0 : Vec Ideal S4096x32 .i32) (x1 : Vec Ideal S4096x32 .f32) (x2 : Vec Ideal S512x512 .bf16) (x3 : Vec Ideal S512 .f32) :
    (kernelRun0_A (F := Ideal) c i arg2 harg2 arg3 harg3 arg4 harg4 arg5 harg5 arg6 harg6 hc0 hc1 x0 x1 x2 x3).1
      = pb_k0_t1 (F := Ideal) Variants.none c none i arg2 harg2 arg3 harg3 arg4 harg4 arg5 harg5 arg6 harg6 (Scalar.muli (BitVec.ofNat 32 (i 1).val) 512#32) (iota .tc S1x512 32 [1] Facts₀.iota_S1x512_d1_w32)
        (View.readAt (Elt Ideal) arg4.view (Rect.unit (s := S512x512) ![0, 0] S512x512.size Facts₀.inb_S512x512_S512x512_0_0).toLoadRect (harg4.unread x2))
        (harg2.unread x0) (harg3.unread x1)
          (arg6.view.writes (Elt Ideal) arg6.view.junk [(⟨Rect.unit (s := S4096x512) ![0, 0] S4096x512.size Facts₀.inb_S4096x512_S4096x512_0_0, k0_pay1 (F := Ideal)⟩ : View.Piece (Elt Ideal) S4096x512 .f32)]) k0_t1_loop.trips
        ++ [(⟨Rect.unit (s := S4096x512) ![0, 0] S4096x512.size Facts₀.inb_S4096x512_S4096x512_0_0, k0_pay1 (F := Ideal)⟩ : View.Piece (Elt Ideal) S4096x512 .f32)] := by
  unfold kernelRun0_A
  dsimp only
  all_goals (sl_unfold_words; try rfl)

theorem list_C (c : Dev nD) (i : grid0.Coords) (arg2 : Memref sig .tc .vmem S4096x32 .i32) (harg2 : arg2.IsWhole) (arg3 : Memref sig .tc .vmem S4096x32 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S4096x512 .f32) (harg6 : arg6.IsWhole) (hc0 : ¬cond0_0 i) (hc1 : cond0_1 i) (x0 : Vec Ideal S4096x32 .i32) (x1 : Vec Ideal S4096x32 .f32) (x2 : Vec Ideal S512x512 .bf16) (x3 : Vec Ideal S512 .f32) (xo4 : Vec Ideal S4096x512 .f32) :
    (kernelRun0_C (F := Ideal) c i arg2 harg2 arg3 harg3 arg4 harg4 arg5 harg5 arg6 harg6 hc0 hc1 x0 x1 x2 x3 xo4).1
      = ⟨Rect.unit (s := S4096x512) ![0, 0] S4096x512.size Facts₀.inb_S4096x512_S4096x512_0_0,
          k0_pay3
            (View.readAt (Elt Ideal) arg6.view (Rect.unit (s := S4096x512) ![0, 0] S4096x512.size Facts₀.inb_S4096x512_S4096x512_0_0).toLoadRect
              (arg6.view.writes (Elt Ideal) (harg6.unread xo4) (pb_k0_t1 (F := Ideal) Variants.none c none i arg2 harg2 arg3 harg3 arg4 harg4 arg5 harg5 arg6 harg6 (Scalar.muli (BitVec.ofNat 32 (i 1).val) 512#32) (iota .tc S1x512 32 [1] Facts₀.iota_S1x512_d1_w32)
        (View.readAt (Elt Ideal) arg4.view (Rect.unit (s := S512x512) ![0, 0] S512x512.size Facts₀.inb_S512x512_S512x512_0_0).toLoadRect (harg4.unread x2))
        (harg2.unread x0) (harg3.unread x1) (harg6.unread xo4) k0_t1_loop.trips)))
            (View.readAt (Elt Ideal) arg5.view (Rect.unit (s := S512) ![0] S512.size Facts₀.inb_S512_S512_0).toLoadRect (harg5.unread x3))⟩
        :: pb_k0_t1 (F := Ideal) Variants.none c none i arg2 harg2 arg3 harg3 arg4 harg4 arg5 harg5 arg6 harg6 (Scalar.muli (BitVec.ofNat 32 (i 1).val) 512#32) (iota .tc S1x512 32 [1] Facts₀.iota_S1x512_d1_w32)
        (View.readAt (Elt Ideal) arg4.view (Rect.unit (s := S512x512) ![0, 0] S512x512.size Facts₀.inb_S512x512_S512x512_0_0).toLoadRect (harg4.unread x2))
        (harg2.unread x0) (harg3.unread x1) (harg6.unread xo4) k0_t1_loop.trips := by
  unfold kernelRun0_C
  dsimp only
  all_goals (sl_unfold_words; try rfl)

/-! ## The tile's product at a row -/

theorem hz2 : (![0, 0] : Fin 2 → Nat) = fun _ => 0 := funext fun a => by fin_cases a <;> rfl
theorem hz1 : (![0] : Fin 1 → Nat) = fun _ => 0 := funext fun a => by fin_cases a <;> rfl

/-- The bag of chunk `q`'s row `r` (built from the block's rows `[256 q, 256 q + 256)`) against column `o` of the tile. -/
def pointTerm (i : grid0.Coords) (x0 : Vec Ideal S4096x32 .i32) (x1 : Vec Ideal S4096x32 .f32) (x2 : Vec Ideal S512x512 .bf16)
    (q : Fin k0_t1_loop.trips) (r : Fin 256) (o : Fin 512) : EReal :=
  ∑ j : Fin 512,
    bagAt (Scalar.muli (BitVec.ofNat 32 (i 1).val) 512#32) (iota .tc S1x512 32 [1] Facts₀.iota_S1x512_d1_w32) (clampOf (View.ld x0 (inRect q))) (View.ld x1 (inRect q)) (maskOf (View.ld x0 (inRect q))) r j 32
      * x2 (ix2 j o)

/-- Row `r`, column `o` of chunk `q` is row `256 q + r`, column `o` of the block. -/
theorem idx_outRect (q : Fin k0_t1_loop.trips) (r : Fin 256) (o : Fin 512) (y : S4096x512.Idx) (hy0 : (y (0 : Fin 2)).val = 256 * q.val + r.val) (hy1 : (y (1 : Fin 2)).val = o.val) : (outRect q).idx (ix2 r o) = y := by
  funext a; apply Fin.ext
  match a with
  | ⟨0, _⟩ =>
    show k0_off2 q (0 : Fin 2) + 1 * r.val = (y (0 : Fin 2)).val
    rw [k0_off2_eq q, hy0]; show 256 * q.val + 1 * r.val = _; omega
  | ⟨1, _⟩ =>
    show k0_off2 q (1 : Fin 2) + 1 * o.val = (y (1 : Fin 2)).val
    rw [k0_off2_eq q, hy1]; show 0 + 1 * o.val = _; omega

/-- A tile's value at a row: what the block held there at loop entry, plus the tile's product. -/
theorem tileVal_apply (i : grid0.Coords) (arg2 : Memref sig .tc .vmem S4096x32 .i32) (harg2 : arg2.IsWhole)
    (arg3 : Memref sig .tc .vmem S4096x32 .f32) (harg3 : arg3.IsWhole) (arg4 : Memref sig .tc .vmem S512x512 .bf16) (harg4 : arg4.IsWhole)
    (arg6 : Memref sig .tc .vmem S4096x512 .f32) (x0 : Vec Ideal S4096x32 .i32) (x1 : Vec Ideal S4096x32 .f32) (x2 : Vec Ideal S512x512 .bf16)
    (G : BufTy.Contents (Elt Ideal) arg6.view.ty) (q : Fin k0_t1_loop.trips) (r : Fin 256) (o : Fin 512) :
    tileVal i arg2 arg3 arg6
        (View.readAt (Elt Ideal) arg4.view (Rect.unit (s := S512x512) ![0, 0] S512x512.size Facts₀.inb_S512x512_S512x512_0_0).toLoadRect (harg4.unread x2))
        (harg2.unread x0) (harg3.unread x1) G q (ix2 r o)
      = arg6.view.read (Elt Ideal) G ((outRect q).idx (ix2 r o)) + pointTerm i x0 x1 x2 q r o := by
  have e4 : View.readAt (Elt Ideal) arg4.view
      (Rect.unit (s := S512x512) ![0, 0] S512x512.size Facts₀.inb_S512x512_S512x512_0_0).toLoadRect (harg4.unread x2) = x2 := by
    rw [View.readAt_eq_ld, harg4.read_unread]
    exact View.ld_unit_zero (S := S512x512) hz2 _ x2
  have e2 : View.readAt (Elt Ideal) arg2.view (inRect q).toLoadRect (harg2.unread x0) = View.ld x0 (inRect q) := by
    rw [View.readAt_eq_ld, harg2.read_unread]
  have e3 : View.readAt (Elt Ideal) arg3.view (inRect q).toLoadRect (harg3.unread x1) = View.ld x1 (inRect q) := by
    rw [View.readAt_eq_ld, harg3.read_unread]
  unfold tileVal
  rw [chunkVal_apply, e4, e2, e3]
  rfl

/-! ## The three cases -/

/-- CASE B (a middle tile): what the point before left, plus the tile's product. -/
theorem out_B (c : Dev nD) (i : grid0.Coords) (arg2 : Memref sig .tc .vmem S4096x32 .i32) (harg2 : arg2.IsWhole) (arg3 : Memref sig .tc .vmem S4096x32 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S4096x512 .f32) (harg6 : arg6.IsWhole) (hc0 : ¬cond0_0 i) (hc1 : ¬cond0_1 i) (x0 : Vec Ideal S4096x32 .i32) (x1 : Vec Ideal S4096x32 .f32) (x2 : Vec Ideal S512x512 .bf16) (x3 : Vec Ideal S512 .f32) (xo4 : Vec Ideal S4096x512 .f32) (q : Fin k0_t1_loop.trips) (r : Fin 256) (o : Fin 512) (y : S4096x512.Idx) (hy0 : (y (0 : Fin 2)).val = 256 * q.val + r.val) (hy1 : (y (1 : Fin 2)).val = o.val) :
    out0_B_4 (F := Ideal) c i arg2 harg2 arg3 harg3 arg4 harg4 arg5 harg5 arg6 harg6 hc0 hc1 x0 x1 x2 x3 xo4 y = xo4 y + pointTerm i x0 x1 x2 q r o := by
  unfold out0_B_4
  rw [list_B, read_loop (F := Ideal) Variants.none c none i arg2 harg2 arg3 harg3 arg4 harg4 arg5 harg5 arg6 harg6 _ _ _ _ VO0_4 _ q r o y hy0 hy1, tileVal_apply, harg6.read_unread, idx_outRect q r o y hy0 hy1]

/-- CASE A (the first tile): zero, plus the tile's product. -/
theorem out_A (c : Dev nD) (i : grid0.Coords) (arg2 : Memref sig .tc .vmem S4096x32 .i32) (harg2 : arg2.IsWhole) (arg3 : Memref sig .tc .vmem S4096x32 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S4096x512 .f32) (harg6 : arg6.IsWhole) (hc0 : cond0_0 i) (hc1 : ¬cond0_1 i) (x0 : Vec Ideal S4096x32 .i32) (x1 : Vec Ideal S4096x32 .f32) (x2 : Vec Ideal S512x512 .bf16) (x3 : Vec Ideal S512 .f32) (q : Fin k0_t1_loop.trips) (r : Fin 256) (o : Fin 512) (y : S4096x512.Idx) (hy0 : (y (0 : Fin 2)).val = 256 * q.val + r.val) (hy1 : (y (1 : Fin 2)).val = o.val) :
    out0_A_4 (F := Ideal) c i arg2 harg2 arg3 harg3 arg4 harg4 arg5 harg5 arg6 harg6 hc0 hc1 x0 x1 x2 x3 y = 0 + pointTerm i x0 x1 x2 q r o := by
  unfold out0_A_4
  rw [list_A, View.writes_append, read_loop (F := Ideal) Variants.none c none i arg2 harg2 arg3 harg3 arg4 harg4 arg5 harg5 arg6 harg6 _ _ _ _ VO0_4 _ q r o y hy0 hy1, tileVal_apply, idx_outRect q r o y hy0 hy1]
  refine congrArg (fun z => z + pointTerm i x0 x1 x2 q r o) ?_
  refine (View.read_writes_cons_unit_of_mem (Val := Elt Ideal) (off := ![0, 0]) (off' := ![0, 0]) (size := S4096x512.size)
    arg6.view arg6.view.junk Facts₀.inb_S4096x512_S4096x512_0_0 (k0_pay1 (F := Ideal)) [] y y rfl (fun a => by
      match a with
      | ⟨0, _⟩ => show _ = 0 + _; omega
      | ⟨1, _⟩ => show _ = 0 + _; omega)).trans ?_
  exact Ideal.ofBits_zero_f32

/-- CASE C (the last tile): what the point before left, plus the tile's product, plus the bias. -/
theorem out_C (c : Dev nD) (i : grid0.Coords) (arg2 : Memref sig .tc .vmem S4096x32 .i32) (harg2 : arg2.IsWhole) (arg3 : Memref sig .tc .vmem S4096x32 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S4096x512 .f32) (harg6 : arg6.IsWhole) (hc0 : ¬cond0_0 i) (hc1 : cond0_1 i) (x0 : Vec Ideal S4096x32 .i32) (x1 : Vec Ideal S4096x32 .f32) (x2 : Vec Ideal S512x512 .bf16) (x3 : Vec Ideal S512 .f32) (xo4 : Vec Ideal S4096x512 .f32) (q : Fin k0_t1_loop.trips) (r : Fin 256) (o : Fin 512) (y : S4096x512.Idx) (hy0 : (y (0 : Fin 2)).val = 256 * q.val + r.val) (hy1 : (y (1 : Fin 2)).val = o.val) :
    out0_C_4 (F := Ideal) c i arg2 harg2 arg3 harg3 arg4 harg4 arg5 harg5 arg6 harg6 hc0 hc1 x0 x1 x2 x3 xo4 y = (xo4 y + pointTerm i x0 x1 x2 q r o) + x3 (ix1 o) := by
  have e6 : View.readAt (Elt Ideal) arg6.view (Rect.unit (s := S4096x512) ![0, 0] S4096x512.size Facts₀.inb_S4096x512_S4096x512_0_0).toLoadRect
      (arg6.view.writes (Elt Ideal) (harg6.unread xo4) (pb_k0_t1 (F := Ideal) Variants.none c none i arg2 harg2 arg3 harg3 arg4 harg4 arg5 harg5 arg6 harg6 (Scalar.muli (BitVec.ofNat 32 (i 1).val) 512#32) (iota .tc S1x512 32 [1] Facts₀.iota_S1x512_d1_w32)
        (View.readAt (Elt Ideal) arg4.view (Rect.unit (s := S512x512) ![0, 0] S512x512.size Facts₀.inb_S512x512_S512x512_0_0).toLoadRect (harg4.unread x2))
        (harg2.unread x0) (harg3.unread x1) (harg6.unread xo4) k0_t1_loop.trips)) y
        = xo4 y + pointTerm i x0 x1 x2 q r o := by
    rw [View.readAt_eq_ld, View.ld_unit_zero (S := S4096x512) hz2, read_loop (F := Ideal) Variants.none c none i arg2 harg2 arg3 harg3 arg4 harg4 arg5 harg5 arg6 harg6 _ _ _ _ arg6.view (harg6.unread xo4) q r o y hy0 hy1, tileVal_apply,
      harg6.read_unread, idx_outRect q r o y hy0 hy1]
  have e5 : View.readAt (Elt Ideal) arg5.view (Rect.unit (s := S512) ![0] S512.size Facts₀.inb_S512_S512_0).toLoadRect (harg5.unread x3) = x3 := by
    rw [View.readAt_eq_ld, harg5.read_unread]
    exact View.ld_unit_zero (S := S512) hz1 _ x3
  unfold out0_C_4
  rw [list_C]
  refine (View.read_writes_cons_unit_of_mem (Val := Elt Ideal) (off := ![0, 0]) (off' := ![0, 0]) (size := S4096x512.size)
    VO0_4 VO0_4.junk Facts₀.inb_S4096x512_S4096x512_0_0 _ _ y y rfl (fun a => by
      match a with
      | ⟨0, _⟩ => show _ = 0 + _; omega
      | ⟨1, _⟩ => show _ = 0 + _; omega)).trans ?_
  unfold k0_pay3
  dsimp only
  rw [addf_apply, shapeCast_self, e6, e5]
  refine congrArg (fun z => (xo4 y + pointTerm i x0 x1 x2 q r o) + z) ?_
  rw [broadcastTo_apply _ _ y (ix2 0 o) (fun a => by
      match a with
      | ⟨0, _⟩ => rfl
      | ⟨1, _⟩ => exact hy1.symm ▸ rfl)]
  refine shapeCast_apply x3 _ (ix2 0 o) (ix1 o) ?_
  rw [Shape.rowMajor_val_one, Shape.rowMajor_val_two]
  show o.val = 0 * 512 + o.val
  omega

end Cert.KernelIdeal.Cases

end
-- ==== Proof.Acc.lean ====
/-
  The output block across the 80 tiles of the table, and the result array.

  Grid point `n = 80 mb + k` works on rows `[4096 mb, 4096 mb + 4096)` of the result and on tile `k` of the table. What
  the output block holds after point `n` at a row is a running sum: zero plus tile 0's product at `k = 0`, the point
  before plus tile `k`'s product after that, and at `k = 79` the bias on top (`acc`). The block is written back to the
  result array only after `k = 79`, so row `b` of the result is the running sum after point `80 (b / 4096) + 79`.
-/
import proofs.«422430_j16441134809367_3_alg».proof.Proof.Cases
import Idealize.ShloMosaic.Lib.Pipeline.Value

set_option maxRecDepth 16384

noncomputable section

namespace Cert.KernelIdeal.Acc

open Idealize.ShloMosaic Idealize.ShloMosaic.TcCoe Idealize.SL.Sem
open Idealize.ShloMosaic.ValueIdx
open Idealize.ShloMosaic.Pipeline (Dat)
open Cert.KernelIdeal Cert.KernelIdeal.Gen Cert.KernelIdeal.GenP Cert.KernelIdeal.Chunk Cert.KernelIdeal.Trip Cert.KernelIdeal.Cases

variable (m : (ℓ : Loc nD τ sig) → Buf (Elt Ideal) ℓ)

/-- The four input blocks at a point, at their literal shapes. -/
abbrev x0At (c : Dev nD) (t : Fin cfg0.N) : Vec Ideal S4096x32 .i32 := iblk m c 0 t
abbrev x1At (c : Dev nD) (t : Fin cfg0.N) : Vec Ideal S4096x32 .f32 := iblk m c 1 t
abbrev x2At (c : Dev nD) (t : Fin cfg0.N) : Vec Ideal S512x512 .bf16 := iblk m c 2 t
abbrev x3At (c : Dev nD) (t : Fin cfg0.N) : Vec Ideal S512 .f32 := iblk m c 3 t

/-- Tile `n % 80`'s product at point `n`, at row `256 q + r` of the block and column `o`. -/
def tileProd (c : Dev nD) (q : Fin k0_t1_loop.trips) (r : Fin 256) (o : Fin 512) (n : ℕ) (hn : n < cfg0.N) : EReal :=
  pointTerm (grid0.coords ⟨n, hn⟩) (x0At m c ⟨n, hn⟩) (x1At m c ⟨n, hn⟩) (x2At m c ⟨n, hn⟩) q r o

/-- THE RUNNING SUM after point `n`. -/
def acc (c : Dev nD) (q : Fin k0_t1_loop.trips) (r : Fin 256) (o : Fin 512) : (n : ℕ) → n < cfg0.N → EReal
  | 0, hn => 0 + tileProd m c q r o 0 hn
  | n + 1, hn =>
    if (n + 1) % 80 = 0 then 0 + tileProd m c q r o (n + 1) hn
    else if (n + 1) % 80 = 79 then
      (acc c q r o n (Nat.lt_of_succ_lt hn) + tileProd m c q r o (n + 1) hn) + x3At m c ⟨n + 1, hn⟩ (ix1 o)
    else acc c q r o n (Nat.lt_of_succ_lt hn) + tileProd m c q r o (n + 1) hn

/-- What the output block holds after point `n` IS the running sum, by induction on the point. -/
theorem outsAt_eq (c : Dev nD) (q : Fin k0_t1_loop.trips) (r : Fin 256) (o : Fin 512) (y : S4096x512.Idx)
    (hy0 : (y (0 : Fin 2)).val = 256 * q.val + r.val) (hy1 : (y (1 : Fin 2)).val = o.val) :
    ∀ (n : ℕ) (hn : n < cfg0.N), outsAt0 m c n hn y = acc m c q r o n hn
  | 0, hn => by
    refine (congrFun (outsAt0_A (F := Ideal) m c ⟨0, hn⟩ (Nat.zero_mod _) (by show ¬(0 : ℕ) % 80 = 79; decide)) y).trans ?_
    exact out_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) _ _ (x0At m c ⟨0, hn⟩) (x1At m c ⟨0, hn⟩) (x2At m c ⟨0, hn⟩) (x3At m c ⟨0, hn⟩) q r o y hy0 hy1
  | n + 1, hn => by
    rw [acc]
    by_cases h0 : (n + 1) % 80 = 0
    · have h1 : ¬(n + 1) % 80 = 79 := by omega
      rw [if_pos h0]
      refine (congrFun (outsAt0_A (F := Ideal) m c ⟨n + 1, hn⟩ h0 h1) y).trans ?_
      exact out_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) _ _ (x0At m c ⟨n + 1, hn⟩) (x1At m c ⟨n + 1, hn⟩) (x2At m c ⟨n + 1, hn⟩) (x3At m c ⟨n + 1, hn⟩) q r o y hy0 hy1
    · rw [if_neg h0]
      by_cases h1 : (n + 1) % 80 = 79
      · rw [if_pos h1]
        refine (congrFun (outsAt0_C (F := Ideal) m c ⟨n + 1, hn⟩ h0 h1) y).trans ?_
        refine (out_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) _ _ (x0At m c ⟨n + 1, hn⟩) (x1At m c ⟨n + 1, hn⟩) (x2At m c ⟨n + 1, hn⟩) (x3At m c ⟨n + 1, hn⟩)
          (outsAt0 m c n (Nat.lt_of_succ_lt hn)) q r o y hy0 hy1).trans ?_
        rw [outsAt_eq c q r o y hy0 hy1 n (Nat.lt_of_succ_lt hn)]
        rfl
      · rw [if_neg h1]
        refine (congrFun (outsAt0_B (F := Ideal) m c ⟨n + 1, hn⟩ h0 h1) y).trans ?_
        refine (out_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) _ _ (x0At m c ⟨n + 1, hn⟩) (x1At m c ⟨n + 1, hn⟩) (x2At m c ⟨n + 1, hn⟩) (x3At m c ⟨n + 1, hn⟩)
          (outsAt0 m c n (Nat.lt_of_succ_lt hn)) q r o y hy0 hy1).trans ?_
        rw [outsAt_eq c q r o y hy0 hy1 n (Nat.lt_of_succ_lt hn)]
        rfl

theorem acc_congr (c : Dev nD) (q q' : Fin k0_t1_loop.trips) (r r' : Fin 256) (o o' : Fin 512) (n n' : ℕ) (hn : n < cfg0.N)
    (hn' : n' < cfg0.N) (eq : q = q') (er : r = r') (eo : o = o') (en : n = n') :
    acc m c q r o n hn = acc m c q' r' o' n' hn' := by
  subst eq; subst er; subst eo; subst en; rfl

/-! ## The result array -/

/-- The output window's block index at a point: block row `t / 80`, block column 0. -/
theorem idx_facts4 : ∀ t : Fin cfg0.N, win0_4.index t (0 : Fin 2) = t.val / 80 ∧ win0_4.index t (1 : Fin 2) = 0 :=
  (by decide +kernel : ∀ t : Fin grid0.N, _)

/-- THE RESULT: row `b` holds the running sum after the last tile of its block of rows. -/
def kerOut (c : Dev nD) : S16384x512.Idx → EReal := fun i =>
  acc m c ⟨((i (0 : Fin 2)).val % 4096) / 256, by have h : (i (0 : Fin 2)).val < 16384 := (i 0).isLt; rw [trips_eq]; omega⟩
    ⟨(i (0 : Fin 2)).val % 256, Nat.mod_lt _ (by norm_num)⟩ ⟨(i (1 : Fin 2)).val, (i 1).isLt⟩
    (80 * ((i (0 : Fin 2)).val / 4096) + 79)
    (by have h : (i (0 : Fin 2)).val < 16384 := (i 0).isLt; show _ < 320; omega)

/-- WHAT A FLUSHING POINT WRITES BACK is its block of `kerOut`. -/
theorem flushed_eq (c : Dev nD) (t : Fin cfg0.N) (hf : (cfg0.win 4).flush t = true) :
    (dats m 0 c).flushed 4 t = ((cfg0.win 4).blk t).view.read (Elt Ideal) (kerOut m c) := by
  have h79 : t.val % 80 = 79 := (flush0_4 t).mp hf
  have hN : t.val < 320 := lt_of_lt_of_eq t.isLt (show cfg0.N = 320 from N_0)
  show (cfg0.win 4).cut (grid0.coords t) ((dats m 0 c).after 4 t) = _
  rw [after0_4]
  obtain ⟨e0, e1⟩ := idx_facts4 t
  funext j
  have hj0 : (j 0).val < 4096 := (j 0).isLt
  have hj1 : (j 1).val < 512 := (j 1).isLt
  show outsAt0 m c t.val t.isLt j = kerOut m c (((cfg0.win 4).blk t).view.emb j)
  have hemb0 : ((((cfg0.win 4).blk t).view.emb j) (0 : Fin 2)).val = 4096 * (t.val / 80) + (j 0).val := by
    show win0_4.index t (0 : Fin 2) * 4096 + 1 * (j 0).val = _
    rw [e0]; omega
  have hemb1 : ((((cfg0.win 4).blk t).view.emb j) (1 : Fin 2)).val = (j 1).val := by
    show win0_4.index t (1 : Fin 2) * 512 + 1 * (j 1).val = _
    rw [e1]; omega
  rw [outsAt_eq m c ⟨(j 0).val / 256, by rw [trips_eq]; omega⟩ ⟨(j 0).val % 256, Nat.mod_lt _ (by norm_num)⟩ ⟨(j 1).val, hj1⟩ j
    (by show (j 0).val = 256 * ((j 0).val / 256) + (j 0).val % 256; omega) rfl t.val t.isLt]
  unfold kerOut
  refine acc_congr m c _ _ _ _ _ _ _ _ _ _ (Fin.ext ?_) (Fin.ext ?_) (Fin.ext ?_) ?_
  · show (j 0).val / 256 = (((((cfg0.win 4).blk t).view.emb j) (0 : Fin 2)).val % 4096) / 256
    rw [hemb0]; omega
  · show (j 0).val % 256 = ((((cfg0.win 4).blk t).view.emb j) (0 : Fin 2)).val % 256
    rw [hemb0]; omega
  · show (j 1).val = ((((cfg0.win 4).blk t).view.emb j) (1 : Fin 2)).val
    rw [hemb1]
  · show t.val = 80 * (((((cfg0.win 4).blk t).view.emb j) (0 : Fin 2)).val / 4096) + 79
    rw [hemb0]; omega

/-- An index of the result is in point `t`'s block iff each coordinate is in the block's range on its axis. -/
theorem mem_blk4 (t : Fin cfg0.N) (i : S16384x512.Idx) :
    i ∈ ((cfg0.win 4).blk t).view.set ↔ ∀ a : Fin 2, win0_4.index t a * S4096x512.size a ≤ (i a).val
      ∧ (i a).val < win0_4.index t a * S4096x512.size a + S4096x512.size a := by
  show i ∈ ((View.whole main_v1).slice (win0_4.rect t)).set ↔ _
  rw [View.set_slice_whole, Rect.mem_set_unit]
  exact Iff.rfl

/-- THE RESULT ARRAY after the run is `kerOut`: every row lies in the block of the last point of its block row. -/
theorem final (c : Dev nD) : (dats m 0 c).arrAt 4 cfg0.N = kerOut m c :=
  (dats m 0 c).arrAt_eq_of_cover 4 (kerOut m c) (fun t hf => flushed_eq m c t hf) fun i => by
    have hi0 : (i (0 : Fin 2)).val < 16384 := (i 0).isLt
    have hi1 : (i (1 : Fin 2)).val < 512 := (i 1).isLt
    have ht : 80 * ((i (0 : Fin 2)).val / 4096) + 79 < cfg0.N := by show _ < 320; omega
    obtain ⟨e0, e1⟩ := idx_facts4 ⟨80 * ((i (0 : Fin 2)).val / 4096) + 79, ht⟩
    refine ⟨⟨80 * ((i (0 : Fin 2)).val / 4096) + 79, ht⟩, (flush0_4 _).mpr (by show (80 * _ + 79) % 80 = 79; omega), ?_⟩
    rw [mem_blk4]
    intro a
    match a with
    | ⟨0, _⟩ =>
      show win0_4.index _ (0 : Fin 2) * 4096 ≤ (i (0 : Fin 2)).val ∧ (i (0 : Fin 2)).val < win0_4.index _ (0 : Fin 2) * 4096 + 4096
      rw [e0]; show (80 * ((i (0 : Fin 2)).val / 4096) + 79) / 80 * 4096 ≤ _ ∧ _ < (80 * ((i (0 : Fin 2)).val / 4096) + 79) / 80 * 4096 + 4096
      omega
    | ⟨1, _⟩ =>
      show win0_4.index _ (1 : Fin 2) * 512 ≤ (i (1 : Fin 2)).val ∧ (i (1 : Fin 2)).val < win0_4.index _ (1 : Fin 2) * 512 + 512
      rw [e1]; omega

end Cert.KernelIdeal.Acc

end
-- ==== Proof.Blocks.lean ====
/-
  The kernel's input blocks as entries of the argument arrays.

  The kernel runs over a grid of 4 × 80 points; point `t` has coordinates `(t / 80, t % 80)`. At point `t` its four input
  windows hold: rows `[4096 · (t / 80), + 4096)` of the feature indices and of the feature values; rows
  `[512 · (t % 80), + 512)` of the table, which the one host operation before the region has narrowed to another float
  format (at the ideal instance the identity); and the whole bias. A block's coordinate on an axis is always the
  window's block index times the block's extent plus the coordinate inside the block, so each reading is one
  arithmetic identity per axis once the windows' index maps are known at every grid point.
-/
import proofs.«422430_j16441134809367_3_alg».proof.Proof.Gen.KernelIdeal.Frame.Runs
import Idealize.ShloMosaic.Lib.ValueIdx
import Idealize.ShloMosaic.Lib.Pipeline.Value
import Idealize.ShloMosaic.Lib.StableHlo.Run

noncomputable section

namespace Cert.KernelIdeal.Blocks

open Idealize.ShloMosaic Idealize.ShloMosaic.TcCoe Idealize.ShloMosaic.ValueIdx Idealize.SL.Sem Cert.KernelIdeal Cert.KernelIdeal.Gen
open Idealize.ShloMosaic.StableHlo

variable (m : (ℓ : Loc nD τ sig) → Buf (Elt Ideal) ℓ)

/-! ## The four input blocks at a grid point -/

/-- The block of feature indices at point `t`. -/
abbrev blk0 (c : Dev nD) (t : Fin cfg0.N) : Vec Ideal S4096x32 .i32 := iblk m c 0 t
/-- The block of feature values at point `t`. -/
abbrev blk1 (c : Dev nD) (t : Fin cfg0.N) : Vec Ideal S4096x32 .f32 := iblk m c 1 t
/-- The block of table rows at point `t`. -/
abbrev blk2 (c : Dev nD) (t : Fin cfg0.N) : Vec Ideal S512x512 .bf16 := iblk m c 2 t
/-- The bias, the same block at every point. -/
abbrev blk3 (c : Dev nD) (t : Fin cfg0.N) : Vec Ideal S512 .f32 := iblk m c 3 t

/-! ## The grid and the windows' index maps, decided over the 320 points -/

/-- Point `t` of the 4 × 80 grid has coordinates `(t / 80, t % 80)`. -/
theorem coords_val (t : Fin cfg0.N) : ((grid0.coords t) 0).val = t.val / 80 ∧ ((grid0.coords t) 1).val = t.val % 80 :=
  (by decide +kernel : ∀ t : Fin grid0.N, ((grid0.coords t) 0).val = t.val / 80 ∧ ((grid0.coords t) 1).val = t.val % 80) t

/-- The block indices of the four input windows at point `t`: the index and value windows follow the first grid
    coordinate, the table's window the second, the bias's window stays at block 0; no window moves along columns. -/
theorem idx_facts : ∀ t : Fin cfg0.N, win0_0.index t (0 : Fin 2) = t.val / 80 ∧ win0_0.index t (1 : Fin 2) = 0
    ∧ win0_1.index t (0 : Fin 2) = t.val / 80 ∧ win0_1.index t (1 : Fin 2) = 0
    ∧ win0_2.index t (0 : Fin 2) = t.val % 80 ∧ win0_2.index t (1 : Fin 2) = 0
    ∧ win0_3.index t (0 : Fin 1) = 0 :=
  (by decide +kernel : ∀ t : Fin grid0.N, _)

/-! ## The table as the region finds it -/

/-- When the region is entered the narrowed table holds, entry by entry, the table argument: the one host operation
    before the region is a change of float format, the identity on extended reals. -/
theorem V_main_v0_apply (c : Dev nD) (i : S40960x512.Idx) :
    V m c main_v0 i = m ((c : Thread nD τ).loc main_arg2) i := by
  have e : @Eq (FVec Ideal S40960x512 .bf16) (V m c main_v0)
      (truncf (F := Ideal) (s := S40960x512) (φ := .f32) .bf16 (m ((c : Thread nD τ).loc main_arg2)) bitsLt_bf16_f32) := by
    dsimp only [Gen.V, Gen.hostOps0]
    after_results
  rw [e]
  rfl

/-! ## Each block read at an index -/

/-- Row `R` of the index block at point `t` is row `4096 · (t / 80) + R` of the feature indices. -/
theorem blk0_apply (c : Dev nD) (t : Fin cfg0.N) (R : Fin 4096) (f : Fin 32) (b : Fin 16384)
    (hb : b.val = 4096 * (t.val / 80) + R.val) :
    blk0 m c t (ix2 R f) = m ((c : Thread nD τ).loc main_arg0) (ix2 b f) := by
  obtain ⟨e0, e1, -⟩ := idx_facts t
  unfold blk0 iblk
  rw [View.read_apply]
  show V m c main_arg0 (((cfg0.win 0).blk t).view.emb (ix2 R f)) = _
  rw [V_main_arg0]
  refine congrArg _ (funext fun a => Fin.ext ?_)
  match a with
  | ⟨0, _⟩ => show win0_0.index t (0 : Fin 2) * 4096 + 1 * R.val = b.val; rw [e0, hb]; omega
  | ⟨1, _⟩ => show win0_0.index t (1 : Fin 2) * 32 + 1 * f.val = f.val; rw [e1]; omega

/-- Row `R` of the value block at point `t` is row `4096 · (t / 80) + R` of the feature values. -/
theorem blk1_apply (c : Dev nD) (t : Fin cfg0.N) (R : Fin 4096) (f : Fin 32) (b : Fin 16384)
    (hb : b.val = 4096 * (t.val / 80) + R.val) :
    blk1 m c t (ix2 R f) = m ((c : Thread nD τ).loc main_arg1) (ix2 b f) := by
  obtain ⟨-, -, e0, e1, -⟩ := idx_facts t
  unfold blk1 iblk
  rw [View.read_apply]
  show V m c main_arg1 (((cfg0.win 1).blk t).view.emb (ix2 R f)) = _
  rw [V_main_arg1]
  refine congrArg _ (funext fun a => Fin.ext ?_)
  match a with
  | ⟨0, _⟩ => show win0_1.index t (0 : Fin 2) * 4096 + 1 * R.val = b.val; rw [e0, hb]; omega
  | ⟨1, _⟩ => show win0_1.index t (1 : Fin 2) * 32 + 1 * f.val = f.val; rw [e1]; omega

/-- Row `j` of the table block at point `t` is row `512 · (t % 80) + j` of the table argument. -/
theorem blk2_apply (c : Dev nD) (t : Fin cfg0.N) (j : Fin 512) (o : Fin 512) (n : Fin 40960)
    (hn : n.val = 512 * (t.val % 80) + j.val) :
    blk2 m c t (ix2 j o) = m ((c : Thread nD τ).loc main_arg2) (ix2 n o) := by
  obtain ⟨-, -, -, -, e0, e1, -⟩ := idx_facts t
  unfold blk2 iblk
  rw [View.read_apply]
  show V m c main_v0 (((cfg0.win 2).blk t).view.emb (ix2 j o)) = _
  rw [V_main_v0_apply]
  refine congrArg _ (funext fun a => Fin.ext ?_)
  match a with
  | ⟨0, _⟩ => show win0_2.index t (0 : Fin 2) * 512 + 1 * j.val = n.val; rw [e0, hn]; omega
  | ⟨1, _⟩ => show win0_2.index t (1 : Fin 2) * 512 + 1 * o.val = o.val; rw [e1]; omega

/-- The bias block at any point is the bias argument. -/
theorem blk3_apply (c : Dev nD) (t : Fin cfg0.N) (o : Fin 512) :
    blk3 m c t (ix1 o) = m ((c : Thread nD τ).loc main_arg3) (ix1 o) := by
  obtain ⟨-, -, -, -, -, -, e0⟩ := idx_facts t
  unfold blk3 iblk
  rw [View.read_apply]
  show V m c main_arg3 (((cfg0.win 3).blk t).view.emb (ix1 o)) = _
  rw [V_main_arg3]
  refine congrArg _ (funext fun a => Fin.ext ?_)
  match a with
  | ⟨0, _⟩ => show win0_3.index t (0 : Fin 1) * 512 + 1 * o.val = o.val; rw [e0]; omega

end Cert.KernelIdeal.Blocks

end
-- ==== Proof.Spec.lean ====
/-
  Two scalar readings of a feature index, shared by the kernel's side and the reference's side of the proof.

  A feature index is a 32-bit word read as a signed integer. A negative index marks padding: its weight is masked to
  zero (`maskR`), and the row it is made to point at is row 0 (`rowOf`: the index clamped below at zero).
-/
import Mathlib.Data.Real.Basic

namespace Cert.Spec

/-- The table row a feature index points at once clamped below at zero. -/
def rowOf (x : BitVec 32) : ℕ := (max x.toInt 0).toNat

/-- The mask of a feature: 1 for a non-negative index, 0 for padding. -/
noncomputable def maskR (x : BitVec 32) : ℝ := if 0 ≤ x.toInt then 1 else 0

end Cert.Spec
-- ==== Proof.Scalars.lean ====
/-
  Three scalar facts that join a kernel's 32-bit-word and float spellings to the two scalar readings of a feature index,
  `Cert.Spec.rowOf` (the index clamped below at zero, as a number) and `Cert.Spec.maskR` (1 for a non-negative index, else 0).
-/
import proofs.«422430_j16441134809367_3_alg».proof.Proof.Spec
import Idealize.ShloMosaic.Lib.Affine
import Idealize.ShloMosaic.Lib.KernelVsHost
import Idealize.ShloMosaic.Lib.ValueIdx
import Idealize.ShloMosaic.PureOps.Ideal

namespace Cert.Scalars

open Idealize.ShloMosaic Idealize.ShloMosaic.ValueIdx

/-- The signed maximum of a word with zero is the word of the clamped index, and the clamped index is below 2³¹: a word
    whose signed value is positive has its top bit clear, so its signed and unsigned values agree; otherwise the maximum is 0. -/
theorem maxsi_zero_eq (x : BitVec 32) :
    IntOp.maxsi x 0#32 = BitVec.ofNat 32 (Cert.Spec.rowOf x) ∧ Cert.Spec.rowOf x < 2 ^ 31 := by
  unfold IntOp.maxsi Cert.Spec.rowOf
  have h0 : (0#32 : BitVec 32).toInt = 0 := by decide
  have hx := BitVec.toInt_eq_toNat_cond x
  have hlt := x.isLt
  by_cases hc : (0#32 : BitVec 32).slt x
  · rw [if_pos hc]
    rw [BitVec.slt_iff_toInt_lt, h0] at hc
    have hr : (max x.toInt 0).toNat = x.toNat := by
      split_ifs at hx <;> omega
    rw [hr]
    refine ⟨?_, ?_⟩
    · apply BitVec.eq_of_toNat_eq
      rw [BitVec.toNat_ofNat]
      omega
    · split_ifs at hx <;> omega
  · rw [if_neg hc]
    rw [BitVec.slt_iff_toInt_lt, h0] at hc
    have hr : (max x.toInt 0).toNat = 0 := by omega
    rw [hr]
    exact ⟨rfl, by omega⟩

/-- The word product `k · 512` for `k < 80` does not wrap: it is the word of the number `512 k`. -/
theorem muli_eq (k : ℕ) (hk : k < 80) : Scalar.muli (BitVec.ofNat 32 k) 512#32 = BitVec.ofNat 32 (512 * k) := by
  show BitVec.ofNat 32 k * BitVec.ofNat 32 512 = BitVec.ofNat 32 (512 * k)
  apply BitVec.eq_of_toNat_eq
  rw [BitVec.toNat_mul, BitVec.toNat_ofNat, BitVec.toNat_ofNat, BitVec.toNat_ofNat]
  omega

/-- A chunk hit, as numbers: the clamped index minus the chunk's first row `512 k`, as 32-bit words, is the column `j < 512`
    exactly when the clamped index is the number `512 k + j`. Both operands are below 2³¹ and `j + 2³¹ ≤ 2³²`, so a negative
    difference wraps to a word above `j` and the word equality is the equality of numbers. -/
theorem hit_iff (x : BitVec 32) (k j : ℕ) (hk : k < 80) (hj : j < 512) :
    IntOp.maxsi x 0#32 - Scalar.muli (BitVec.ofNat 32 k) 512#32 = BitVec.ofNat 32 j ↔ Cert.Spec.rowOf x = 512 * k + j := by
  obtain ⟨hm, hr⟩ := maxsi_zero_eq x
  rw [hm, muli_eq k hk]
  exact ofNat_sub_ofNat_eq_iff (n := 2 ^ 31) hr (by omega) (by omega)

/-- The mask of one feature over the extended reals: the one-bit test `0 ≤ x` (signed), widened to 32 bits and converted to a
    float, is the real 1 for a non-negative index and the real 0 for a negative one. -/
theorem mask_ideal (x : BitVec 32) :
    (FloatOps.sitofp (F := Ideal) .f32 (BitVec.setWidth 32 (IntOp.cmpi .sge x 0#32)) : EReal) = ((Cert.Spec.maskR x : ℝ) : EReal) := by
  have h0 : (0#32 : BitVec 32).toInt = 0 := by decide
  have hb : IntOp.cmpi .sge x 0#32 = if 0 ≤ x.toInt then 1#1 else 0#1 := by
    by_cases h : 0 ≤ x.toInt
    · rw [if_pos h]; exact IntOp.cmpi_sge.2 (by rw [h0]; exact h)
    · rw [if_neg h]
      rcases BitVec.eq_zero_or_eq_one (IntOp.cmpi .sge x 0#32) with e | e
      · exact e
      · exact absurd (by have := IntOp.cmpi_sge.1 e; rwa [h0] at this) h
  show ((((IntOp.cmpi .sge x 0#32).setWidth 32).toInt : ℝ) : EReal) = _
  rw [toInt_setWidth_bit, hb]
  unfold Cert.Spec.maskR
  by_cases h : 0 ≤ x.toInt
  · rw [if_pos h, if_pos h]; norm_num
  · rw [if_neg h, if_neg h]; norm_num

/-- The column counter of a one-row, 512-column rectangle along its second axis reads, at column `j`, the word of `j`: the
    row-major number over the one listed axis is `0 · 512 + j`. -/
theorem iota_col (h : (⟨2, ![1, 512]⟩ : Shape).Iotas .tc 32 [1]) (j : Fin 512) :
    iota .tc (⟨2, ![1, 512]⟩ : Shape) 32 [1] h (ix2 (0 : Fin 1) j) = BitVec.ofNat 32 j.val := by
  show BitVec.ofNat 32 (0 * (⟨2, ![1, 512]⟩ : Shape).size 1 + j.val) = BitVec.ofNat 32 j.val
  rw [Nat.zero_mul, Nat.zero_add]

end Cert.Scalars
-- ==== Proof.OneHot.lean ====
/-
  The arithmetic behind a blocked one-hot matrix product, over the reals.

  A table of 40960 rows is cut into 80 tiles of 512 rows. For one output entry, let `a f` (f < 32) be the row numbers
  the entry's features point at, `u f` their weights and `W n` the table's column. Tile `k` contributes
  `∑ j < 512, (∑ f, [a f = 512 k + j] · u f) · W (512 k + j)`: the inner sum is the "bag" of the tile, entry `j` of
  which collects the weights of the features that point at row `512 k + j`. Summed over the tiles this is
  `∑ f, W (a f) · u f`, because every row number below 40960 is `512 k + j` for exactly one pair `(k, j)`.
  Distributing the product over the bag is where the values have to be real numbers: the extended reals are not
  distributive at the infinities.
-/
import Idealize.ShloMosaic.PureOps.Ideal
import Mathlib.Tactic.Ring

namespace Cert.OneHot

open Finset

/-- The embedding of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row number below 40960 is `512 k + j` for exactly one tile `k < 80` and one offset `j < 512`: a sum over all
    pairs of a term that is present only at the pair of `n` is that term. -/
theorem sum_tiles_single (n : ℕ) (hn : n < 40960) (c : ℝ) :
    ∑ k ∈ range 80, ∑ j ∈ range 512, (if n = 512 * k + j then c else 0) = c := by
  rw [Finset.sum_eq_single (n / 512)]
  · rw [Finset.sum_eq_single (n % 512)]
    · rw [if_pos (by omega)]
    · intro j _ hj; rw [if_neg (by omega)]
    · intro h; exact absurd (Finset.mem_range.mpr (Nat.mod_lt _ (by norm_num))) h
  · intro k _ hk
    exact Finset.sum_eq_zero fun j hj => by
      have := Finset.mem_range.mp hj
      rw [if_neg (by omega)]
  · intro h; exact absurd (Finset.mem_range.mpr (by omega)) h

/-- THE COLLAPSE: the tiles' bag-times-table products sum to the gathered rows' weighted sum. -/
theorem collapse (a : Fin 32 → ℕ) (ha : ∀ f, a f < 40960) (u : Fin 32 → ℝ) (W : ℕ → ℝ) :
    ∑ k ∈ range 80, ∑ j ∈ range 512, (∑ f, if a f = 512 * k + j then u f else 0) * W (512 * k + j)
      = ∑ f, W (a f) * u f := by
  have h1 : ∀ k j, (∑ f, if a f = 512 * k + j then u f else 0) * W (512 * k + j)
      = ∑ f, (if a f = 512 * k + j then W (a f) * u f else 0) := by
    intro k j
    rw [Finset.sum_mul]
    refine Finset.sum_congr rfl fun f _ => ?_
    by_cases h : a f = 512 * k + j
    · rw [if_pos h, if_pos h, h]; ring
    · rw [if_neg h, if_neg h, zero_mul]
  simp only [h1]
  calc ∑ k ∈ range 80, ∑ j ∈ range 512, ∑ f, (if a f = 512 * k + j then W (a f) * u f else 0)
      = ∑ k ∈ range 80, ∑ f, ∑ j ∈ range 512, (if a f = 512 * k + j then W (a f) * u f else 0) :=
        Finset.sum_congr rfl fun k _ => Finset.sum_comm
    _ = ∑ f, ∑ k ∈ range 80, ∑ j ∈ range 512, (if a f = 512 * k + j then W (a f) * u f else 0) := Finset.sum_comm
    _ = ∑ f, W (a f) * u f := Finset.sum_congr rfl fun f _ => sum_tiles_single (a f) (ha f) _

end Cert.OneHot
-- ==== Proof.BagReal.lean ====
/-
  The bag's entry as a finite sum of reals.

  The entry of the bag at row `r` and tile column `j` is built by 32 steps, step `f` adding the product
  `x16 (r, f) * x20 (r, f)` when feature `f` hits the column and zero otherwise. When every product is a real number `u f`
  and "feature `f` hits" is the statement `a f = n0` about numbers, the 32 steps add real numbers only, so the entry is
  the embedding of the real sum `∑ f, [a f = n0] · u f`: the embedding of the reals into the extended reals preserves
  zero and addition.
-/
import proofs.«422430_j16441134809367_3_alg».proof.Proof.Chunk
import proofs.«422430_j16441134809367_3_alg».proof.Proof.OneHot

namespace Cert.KernelIdeal.BagReal

open Idealize.ShloMosaic Idealize.ShloMosaic.ValueIdx Cert.KernelIdeal Cert.KernelIdeal.Chunk

/-- Step `f`'s real summand, as a function of the step's number: `u f` when feature `f` hits, else zero; zero from step 32 on. -/
def stepR (a : Fin 32 → ℕ) (u : Fin 32 → ℝ) (n0 : ℕ) (f : ℕ) : ℝ :=
  if h : f < 32 then (if a ⟨f, h⟩ = n0 then u ⟨f, h⟩ else 0) else 0

/-- After `n ≤ 32` steps the entry is the embedding of the first `n` real summands' sum: by induction on `n`, each step
    adding either the real `u n` or zero to a real. -/
theorem bagAt_eq_range (k0 : BitVec 32) (cols : IVec S1x512 32) (x22 : IVec S256x32 32) (x16 x20 : FVec Ideal S256x32 .f32)
    (r : Fin 256) (j : Fin 512) (a : Fin 32 → ℕ) (u : Fin 32 → ℝ) (n0 : ℕ)
    (hhit : ∀ f : Fin 32, x22 (ix2 r f) - k0 = cols (ix2 0 j) ↔ a f = n0)
    (hval : ∀ f : Fin 32, x16 (ix2 r f) * x20 (ix2 r f) = ((u f : ℝ) : EReal)) (n : ℕ) (hn : n ≤ 32) :
    bagAt k0 cols x22 x16 x20 r j n = ((∑ f ∈ Finset.range n, stepR a u n0 f : ℝ) : EReal) := by
  induction n with
  | zero => rw [bagAt, Finset.sum_range_zero, EReal.coe_zero]
  | succ n ih =>
    have h : n < 32 := by omega
    rw [bagAt, dif_pos h, ih (by omega), Finset.sum_range_succ, EReal.coe_add]
    congr 1
    unfold stepR
    rw [dif_pos h]
    by_cases hc : a ⟨n, h⟩ = n0
    · rw [if_pos hc, if_pos ((hhit ⟨n, h⟩).2 hc), hval]
    · rw [if_neg hc, if_neg (fun e => hc ((hhit ⟨n, h⟩).1 e)), EReal.coe_zero]

/-- THE BAG'S ENTRY: after all 32 steps it is the embedding of `∑ f, [a f = n0] · u f`. The sum over the first 32 step
    numbers is the sum over the 32 features, step `f`'s summand being feature `f`'s. -/
theorem bagAt_eq_sum (k0 : BitVec 32) (cols : IVec S1x512 32) (x22 : IVec S256x32 32) (x16 x20 : FVec Ideal S256x32 .f32)
    (r : Fin 256) (j : Fin 512) (a : Fin 32 → ℕ) (u : Fin 32 → ℝ) (n0 : ℕ)
    (hhit : ∀ f : Fin 32, x22 (ix2 r f) - k0 = cols (ix2 0 j) ↔ a f = n0)
    (hval : ∀ f : Fin 32, x16 (ix2 r f) * x20 (ix2 r f) = ((u f : ℝ) : EReal)) :
    bagAt k0 cols x22 x16 x20 r j 32 = ((∑ f : Fin 32, (if a f = n0 then u f else 0) : ℝ) : EReal) := by
  rw [bagAt_eq_range k0 cols x22 x16 x20 r j a u n0 hhit hval 32 le_rfl, Finset.sum_range]
  refine congrArg (fun z : ℝ => (z : EReal)) (Finset.sum_congr rfl fun f _ => ?_)
  unfold stepR
  rw [dif_pos f.isLt]

end Cert.KernelIdeal.BagReal
-- ==== Proof.Bridge.lean ====
/-
  The kernel's result as real numbers.

  Under the precondition every value, table entry and bias entry is a real number. Then tile `k`'s product at result
  row `b` and column `o` is the real number `PR b o k = ∑ j < 512, (∑ f, [a f = 512 k + j] u f) · W (512 k + j)`, where
  `a f` is the table row feature `f` of row `b` points at (its index clamped below at zero), `u f` its masked value and
  `W` column `o` of the table; the running sum over the tiles is the sum of these, and after the last tile, with the
  bias added, the one-hot collapse (`Cert.OneHot.collapse`) turns it into `∑ f, W (a f) · u f` plus the bias: the
  gathered rows' weighted sum.
-/
import proofs.«422430_j16441134809367_3_alg».proof.Proof.Acc
import proofs.«422430_j16441134809367_3_alg».proof.Proof.Blocks
import proofs.«422430_j16441134809367_3_alg».proof.Proof.Scalars
import proofs.«422430_j16441134809367_3_alg».proof.Proof.BagReal
import proofs.«422430_j16441134809367_3_alg».proof.Proof.OneHot

set_option maxRecDepth 16384

noncomputable section

namespace Cert.KernelIdeal.Bridge

open Idealize.ShloMosaic Idealize.ShloMosaic.TcCoe Idealize.SL.Sem
open Idealize.ShloMosaic.ValueIdx
open Cert.KernelIdeal Cert.KernelIdeal.Gen Cert.KernelIdeal.GenP Cert.KernelIdeal.Chunk Cert.KernelIdeal.Trip
open Cert.KernelIdeal.Cases Cert.KernelIdeal.Acc Cert.KernelIdeal.Blocks
open Finset

variable (m : (ℓ : Loc nD τ sig) → Buf (Elt Ideal) ℓ) (c : Dev nD)
variable (val' : S16384x32.Idx → ℝ) (w' : S40960x512.Idx → ℝ) (bias' : S512.Idx → ℝ)

/-- The table row feature `f` of result row `b` points at. -/
def aOf (b : Fin 16384) (f : Fin 32) : ℕ := Cert.Spec.rowOf (m ((c : Thread nD τ).loc main_arg0) (ix2 b f))
/-- Its masked value. -/
def uOf (b : Fin 16384) (f : Fin 32) : ℝ := val' (ix2 b f) * Cert.Spec.maskR (m ((c : Thread nD τ).loc main_arg0) (ix2 b f))
/-- Column `o` of the table, by row number. -/
def Wof (o : Fin 512) (n : ℕ) : ℝ := if h : n < 40960 then w' (ix2 ⟨n, h⟩ o) else 0
/-- Tile `k`'s product at row `b`, column `o`. -/
def PR (b : Fin 16384) (o : Fin 512) (k : ℕ) : ℝ :=
  ∑ j ∈ range 512, (∑ f : Fin 32, if aOf m c b f = 512 * k + j then uOf m c val' b f else 0) * Wof w' o (512 * k + j)

/-- Row `r`, column `f` of chunk `q` of the index (or value) block is row `256 q + r` of the block. -/
theorem inRect_idx (q : Fin k0_t1_loop.trips) (r : Fin 256) (f : Fin 32) (R : Fin 4096) (hR : R.val = 256 * q.val + r.val) :
    (inRect q).idx (ix2 r f) = ix2 R f := by
  funext a; apply Fin.ext
  match a with
  | ⟨0, _⟩ =>
    show k0_off1 q (0 : Fin 2) + 1 * r.val = R.val
    rw [k0_off1_eq q, hR]; show 256 * q.val + 1 * r.val = _; omega
  | ⟨1, _⟩ =>
    show k0_off1 q (1 : Fin 2) + 1 * f.val = f.val
    rw [k0_off1_eq q]; show 0 + 1 * f.val = _; omega

/-- THE TILE'S PRODUCT IS `PR`. -/
theorem tileProd_real (hval : ∀ i, m ((c : Thread nD τ).loc main_arg1) i = ((val' i : ℝ) : EReal)) (hw : ∀ i, m ((c : Thread nD τ).loc main_arg2) i = ((w' i : ℝ) : EReal))
    (b : Fin 16384) (o : Fin 512) (q : Fin k0_t1_loop.trips) (r : Fin 256) (R : Fin 4096) (hR : R.val = 256 * q.val + r.val)
    (n : ℕ) (hn : n < cfg0.N) (hb : b.val = 4096 * (n / 80) + R.val) :
    tileProd m c q r o n hn = ((PR m c val' w' b o (n % 80) : ℝ) : EReal) := by
  have hN : n < 320 := lt_of_lt_of_eq hn (show cfg0.N = 320 from N_0)
  have hk : n % 80 < 80 := Nat.mod_lt _ (by norm_num)
  have hsum : ∀ j : Fin 512,
      bagAt (Scalar.muli (BitVec.ofNat 32 ((grid0.coords ⟨n, hn⟩) 1).val) 512#32) (iota .tc S1x512 32 [1] Facts₀.iota_S1x512_d1_w32)
          (clampOf (View.ld (x0At m c ⟨n, hn⟩) (inRect q))) (View.ld (x1At m c ⟨n, hn⟩) (inRect q))
          (maskOf (View.ld (x0At m c ⟨n, hn⟩) (inRect q))) r j 32 * x2At m c ⟨n, hn⟩ (ix2 j o)
        = (((∑ f : Fin 32, if aOf m c b f = 512 * (n % 80) + j.val then uOf m c val' b f else 0)
            * Wof w' o (512 * (n % 80) + j.val) : ℝ) : EReal) := by
    intro j
    have hj := j.isLt
    rw [Cert.KernelIdeal.BagReal.bagAt_eq_sum _ _ _ _ _ r j (aOf m c b) (uOf m c val' b) (512 * (n % 80) + j.val)
      (fun f => by
        show IntOp.maxsi (blk0 m c ⟨n, hn⟩ ((inRect q).idx (ix2 r f))) 0#32
            - Scalar.muli (BitVec.ofNat 32 ((grid0.coords ⟨n, hn⟩) 1).val) 512#32
            = iota .tc S1x512 32 [1] Facts₀.iota_S1x512_d1_w32 (ix2 0 j) ↔ _
        rw [inRect_idx q r f R hR, blk0_apply m c ⟨n, hn⟩ R f b hb, (coords_val ⟨n, hn⟩).2, Cert.Scalars.iota_col]
        exact Cert.Scalars.hit_iff _ (n % 80) j.val hk hj)
      (fun f => by
        show blk1 m c ⟨n, hn⟩ ((inRect q).idx (ix2 r f))
            * FloatOps.sitofp (F := Ideal) .f32 (BitVec.setWidth 32 (IntOp.cmpi .sge (blk0 m c ⟨n, hn⟩ ((inRect q).idx (ix2 r f))) 0#32))
            = _
        rw [inRect_idx q r f R hR, blk1_apply m c ⟨n, hn⟩ R f b hb, blk0_apply m c ⟨n, hn⟩ R f b hb, hval, Cert.Scalars.mask_ideal,
          ← EReal.coe_mul]
        rfl),
      EReal.coe_mul]
    refine congrArg (fun z => ((∑ f : Fin 32, if aOf m c b f = 512 * (n % 80) + j.val then uOf m c val' b f else 0 : ℝ) : EReal) * z) ?_
    show blk2 m c ⟨n, hn⟩ (ix2 j o) = _
    rw [blk2_apply m c ⟨n, hn⟩ j o ⟨512 * (n % 80) + j.val, by omega⟩ rfl, hw]
    unfold Wof
    rw [dif_pos (by omega)]
  unfold tileProd pointTerm
  rw [Finset.sum_congr rfl (fun j _ => hsum j), ← Cert.OneHot.coe_sum]
  unfold PR
  rw [Fin.sum_univ_eq_sum_range
    (fun j => (∑ f : Fin 32, if aOf m c b f = 512 * (n % 80) + j then uOf m c val' b f else 0) * Wof w' o (512 * (n % 80) + j)) 512]

/-! ## The running sum in real numbers -/

theorem acc_first (q : Fin k0_t1_loop.trips) (r : Fin 256) (o : Fin 512) (n : ℕ) (hn : n < cfg0.N) (h0 : n % 80 = 0) :
    acc m c q r o n hn = 0 + tileProd m c q r o n hn := by
  cases n with
  | zero => rfl
  | succ n => rw [acc, if_pos h0]

theorem acc_mid (q : Fin k0_t1_loop.trips) (r : Fin 256) (o : Fin 512) (n : ℕ) (hn : n + 1 < cfg0.N) (h0 : ¬(n + 1) % 80 = 0)
    (h1 : ¬(n + 1) % 80 = 79) :
    acc m c q r o (n + 1) hn = acc m c q r o n (Nat.lt_of_succ_lt hn) + tileProd m c q r o (n + 1) hn := by
  rw [acc, if_neg h0, if_neg h1]

theorem acc_last (q : Fin k0_t1_loop.trips) (r : Fin 256) (o : Fin 512) (n : ℕ) (hn : n + 1 < cfg0.N) (h1 : (n + 1) % 80 = 79) :
    acc m c q r o (n + 1) hn
      = (acc m c q r o n (Nat.lt_of_succ_lt hn) + tileProd m c q r o (n + 1) hn) + x3At m c ⟨n + 1, hn⟩ (ix1 o) := by
  rw [acc, if_neg (by omega), if_pos h1]

/-- After tile `k < 79` of block row `mb` the running sum is the sum of the first `k + 1` tiles' products; after tile 79, of
    all eighty, plus the bias. -/
theorem acc_real (hval : ∀ i, m ((c : Thread nD τ).loc main_arg1) i = ((val' i : ℝ) : EReal)) (hw : ∀ i, m ((c : Thread nD τ).loc main_arg2) i = ((w' i : ℝ) : EReal)) (hbias : ∀ i, m ((c : Thread nD τ).loc main_arg3) i = ((bias' i : ℝ) : EReal))
    (b : Fin 16384) (o : Fin 512) (q : Fin k0_t1_loop.trips) (r : Fin 256) (R : Fin 4096) (hR : R.val = 256 * q.val + r.val)
    (mb : ℕ) (hmb : mb < 4) (hb : b.val = 4096 * mb + R.val) :
    ∀ (k : ℕ) (hk : k < 80) (hn : 80 * mb + k < cfg0.N),
      acc m c q r o (80 * mb + k) hn
        = if k = 79 then (((∑ k' ∈ range 80, PR m c val' w' b o k') + bias' (ix1 o) : ℝ) : EReal)
          else ((∑ k' ∈ range (k + 1), PR m c val' w' b o k' : ℝ) : EReal)
  | 0, hk, hn => by
    rw [acc_first m c q r o _ hn (by omega), if_neg (by decide),
      tileProd_real m c val' w' hval hw b o q r R hR _ hn (by rw [hb]; omega), zero_add,
      show (80 * mb + 0) % 80 = 0 from by omega, Finset.sum_range_one]
  | k + 1, hk, hn => by
    have ih := acc_real hval hw hbias b o q r R hR mb hmb hb k (by omega) (Nat.lt_of_succ_lt hn)
    rw [if_neg (by omega)] at ih
    have hmod : (80 * mb + k + 1) % 80 = k + 1 := by omega
    have htp := tileProd_real m c val' w' hval hw b o q r R hR (80 * mb + k + 1) hn (by rw [hb]; omega)
    rw [hmod] at htp
    by_cases h79 : k + 1 = 79
    · rw [if_pos h79]
      show acc m c q r o (80 * mb + k + 1) hn = _
      rw [acc_last m c q r o (80 * mb + k) hn (by omega), ih, htp]
      show _ + blk3 m c ⟨80 * mb + k + 1, hn⟩ (ix1 o) = _
      rw [blk3_apply, hbias, ← EReal.coe_add, ← EReal.coe_add, ← Finset.sum_range_succ,
        show k + 1 + 1 = 80 from by omega]
    · rw [if_neg h79]
      show acc m c q r o (80 * mb + k + 1) hn = _
      rw [acc_mid m c q r o (80 * mb + k) hn (by omega) (by omega), ih, htp, ← EReal.coe_add, ← Finset.sum_range_succ]

/-- THE RESULT AT AN INDEX, IN REAL NUMBERS: the eighty tiles' products and the bias. -/
theorem kerOut_real (hval : ∀ i, m ((c : Thread nD τ).loc main_arg1) i = ((val' i : ℝ) : EReal)) (hw : ∀ i, m ((c : Thread nD τ).loc main_arg2) i = ((w' i : ℝ) : EReal)) (hbias : ∀ i, m ((c : Thread nD τ).loc main_arg3) i = ((bias' i : ℝ) : EReal)) (b : Fin 16384) (o : Fin 512) :
    kerOut m c (ix2 b o) = (((∑ k' ∈ range 80, PR m c val' w' b o k') + bias' (ix1 o) : ℝ) : EReal) := by
  have hb := b.isLt
  unfold kerOut
  have h := acc_real m c val' w' bias' hval hw hbias b o ⟨(b.val % 4096) / 256, by rw [trips_eq]; omega⟩
    ⟨b.val % 256, Nat.mod_lt _ (by norm_num)⟩ ⟨b.val % 4096, Nat.mod_lt _ (by norm_num)⟩
    (by show b.val % 4096 = 256 * ((b.val % 4096) / 256) + b.val % 256; omega) (b.val / 4096) (by omega)
    (by show b.val = 4096 * (b.val / 4096) + b.val % 4096; omega) 79 (by norm_num) (by show _ < 320; omega)
  rw [if_pos rfl] at h
  exact h

/-- and, every feature index being below 40960, the gathered rows' weighted sum plus the bias. -/
theorem kerOut_eq (hval : ∀ i, m ((c : Thread nD τ).loc main_arg1) i = ((val' i : ℝ) : EReal)) (hw : ∀ i, m ((c : Thread nD τ).loc main_arg2) i = ((w' i : ℝ) : EReal)) (hbias : ∀ i, m ((c : Thread nD τ).loc main_arg3) i = ((bias' i : ℝ) : EReal))
    (hidx : ∀ i, (m ((c : Thread nD τ).loc main_arg0) i).toInt < 40960) (b : Fin 16384) (o : Fin 512) :
    kerOut m c (ix2 b o)
      = (((0 + ∑ f : Fin 32, Wof w' o (aOf m c b f) * uOf m c val' b f) + bias' (ix1 o) : ℝ) : EReal) := by
  rw [kerOut_real m c val' w' bias' hval hw hbias b o]
  unfold PR
  rw [Cert.OneHot.collapse (aOf m c b) (fun f => by
    have := hidx (ix2 b f)
    unfold aOf Cert.Spec.rowOf
    omega) (uOf m c val' b) (Wof w' o), zero_add]

/-! ## The reference's entry, in the same real numbers -/

/-- The four argument arrays at their literal shapes. -/
abbrev idxA : IVec S16384x32 32 := m ((c : Thread nD τ).loc main_arg0)
abbrev valA : FVec Ideal S16384x32 .f32 := m ((c : Thread nD τ).loc main_arg1)
abbrev wA : FVec Ideal S40960x512 .f32 := m ((c : Thread nD τ).loc main_arg2)
abbrev biasA : FVec Ideal S512 .f32 := m ((c : Thread nD τ).loc main_arg3)

/-- The reference's gathered-rows sum at `(b, o)` (as its read-at-an-index form states it, the row clamped into the table)
    is the same real number: below 40960 the clamp does nothing. -/
theorem ref_real (hval : ∀ i, valA m c i = ((val' i : ℝ) : EReal)) (hw : ∀ i, wA m c i = ((w' i : ℝ) : EReal))
    (hbias : ∀ i, biasA m c i = ((bias' i : ℝ) : EReal)) (hidx : ∀ i, (idxA m c i).toInt < 40960) (b : Fin 16384) (o : Fin 512) :
    ((0 : EReal) + ∑ f : Fin 32,
        wA m c (ix2 ⟨min (Cert.Spec.rowOf (idxA m c (ix2 b f))) 40959, by omega⟩ o)
          * (valA m c (ix2 b f) * ((Cert.Spec.maskR (idxA m c (ix2 b f)) : ℝ) : EReal)))
        + biasA m c (ix1 o)
      = (((0 + ∑ f : Fin 32, Wof w' o (aOf m c b f) * uOf m c val' b f) + bias' (ix1 o) : ℝ) : EReal) := by
  rw [hbias, EReal.coe_add, EReal.coe_add, EReal.coe_zero, Cert.OneHot.coe_sum]
  refine congrArg (fun z => ((0 : EReal) + z) + ((bias' (ix1 o) : ℝ) : EReal)) (Finset.sum_congr rfl fun f _ => ?_)
  have hlt : Cert.Spec.rowOf (idxA m c (ix2 b f)) < 40960 := by
    have := hidx (ix2 b f)
    unfold Cert.Spec.rowOf
    omega
  have e : (⟨min (Cert.Spec.rowOf (idxA m c (ix2 b f))) 40959, by omega⟩ : Fin 40960)
      = ⟨Cert.Spec.rowOf (idxA m c (ix2 b f)), hlt⟩ := Fin.ext (Nat.min_eq_left (by omega))
  rw [e, hw, hval, ← EReal.coe_mul, ← EReal.coe_mul]
  unfold Wof aOf uOf
  rw [dif_pos hlt]

end Cert.KernelIdeal.Bridge

end
-- ==== Proof.RefValue.lean ====
/-
  The reference's side of the equivalence.

  The idealized reference is a straight line of host operations over four arrays: feature indices `idx : i32[16384, 32]`,
  feature values `val : f32[16384, 32]`, a table `w : f32[40960, 512]` and a bias `bias : f32[512]`. Read on the extended
  reals it computes, at row `b` and column `o`,

      0 + ∑ f, w[min (max idx[b, f] 0) 40959, o] · (val[b, f] · [0 ≤ idx[b, f]]) + bias[o].

  This module names that result as one function of the four arrays (`refOut`), restates the generated run of the
  program over it (`run_ref`), and reads it at an index (`refOut_apply`). Three facts carry the reading:
  * a feature's mask, the conversion of the one-bit compare `idx ≥ 0`, is the real number 1 or 0 (`uitofp_sge_zero`);
  * the start index of the row take is `max idx 0` as a signed integer: the select that would add the table's height to
    a negative start never fires, since the maximum with zero is never negative (`safe_apply`);
  * a gather of whole rows, `w[start, :]`, reads the table at the start index clamped into the table's rows and at the
    result's own column (`gather_rows_apply`).
-/
import proofs.«422430_j16441134809367_3_alg».proof.Proof.Gen.ReferenceIdeal.Run
import proofs.«422430_j16441134809367_3_alg».proof.Proof.Gen.ReferenceIdeal.Read
import proofs.«422430_j16441134809367_3_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx
open scoped BigOperators

/-! ## Words: the mask bit and the clamped start index -/

/-- The signed maximum of a word with zero, read as an integer, is the maximum of the integers. -/
theorem maxsi_zero_toInt (x : BitVec 32) : (IntOp.maxsi x 0#32).toInt = max x.toInt 0 := by
  unfold IntOp.maxsi
  by_cases h : (0#32).slt x = true
  · rw [if_pos h]
    have h' : (0 : Int) < x.toInt := by simpa [BitVec.slt] using h
    omega
  · rw [if_neg h]
    have h' : ¬ (0 : Int) < x.toInt := by simpa [BitVec.slt] using h
    rw [BitVec.toInt_zero]
    omega

/-- The signed maximum of a word with zero is never below zero: the compare "less than zero" answers the bit 0. -/
theorem cmpi_slt_maxsi_zero (x : BitVec 32) : IntOp.cmpi .slt (IntOp.maxsi x 0#32) 0#32 = 0#1 := by
  show BitVec.ofBool ((IntOp.maxsi x 0#32).slt 0#32) = 0#1
  have h : (IntOp.maxsi x 0#32).slt 0#32 = false := by
    simp only [BitVec.slt, maxsi_zero_toInt, BitVec.toInt_zero, decide_eq_false_iff_not]
    omega
  rw [h]
  rfl

/-- The row a feature index is made to point at: the signed maximum with zero, read as a natural number. -/
theorem maxsi_zero_rowOf (x : BitVec 32) : (IntOp.maxsi x 0#32).toInt.toNat = Cert.Spec.rowOf x := by
  rw [maxsi_zero_toInt]
  rfl

/-- The mask of a feature at the ideal instance: the one-bit compare `x ≥ 0` converted to a float is the real number
    1 when `x` is non-negative as a signed integer and 0 otherwise. -/
theorem uitofp_sge_zero (x : BitVec 32) :
    FloatOps.uitofp (F := Ideal) .f32 (IntOp.cmpi .sge x 0#32) = ((Cert.Spec.maskR x : ℝ) : EReal) := by
  show (((BitVec.ofBool ((0#32).sle x)).toNat : ℝ) : EReal) = _
  unfold Cert.Spec.maskR
  by_cases h : 0 ≤ x.toInt
  · have hs : (0#32).sle x = true := by
      simp only [BitVec.sle, BitVec.toInt_zero, decide_eq_true_eq]
      exact h
    rw [hs, if_pos h]
    simp
  · have hs : (0#32).sle x = false := by
      simp only [BitVec.sle, BitVec.toInt_zero, decide_eq_false_iff_not]
      exact h
    rw [hs, if_neg h]
    simp

/-! ## The gather of whole rows, read at an index

The reference's `w[start, :]` is a gather over the table `[40960, 512]` with start indices `[16384, 32, 1]`: the table's
row axis is collapsed and start-indexed, its column axis is the result's one offset axis, and the slice is one whole
row. Result element `(b, f, o)` is the table at row `start[b, f, 0]`, read signed and clamped into `[0, 40959]`, and at
column `o`. -/

/-- The reference's gather record. -/
abbrev gd : GatherDims S40960x512 S16384x32x1 S16384x32x512 :=
  gather_S40960x512_S16384x32x1_S16384x32x512_2_0_n_n_0_2_1512

/-- On the table's row axis the operand index is the clamped start index the result's two batch coordinates name. -/
theorem gd_row (si : IVec S16384x32x1 32) (j : S16384x32x512.Idx) :
    (gd.operandIdx j si 0).val = min (si (ix3 (j 0) (j 1) (0 : Fin 1))).toInt.toNat 40959 := by
  show gd.start j si 0 + gd.batchCoord j 0 + gd.offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gd.startIndexMap from List.mem_singleton.mpr rfl)]
  have hsi : gd.siIdx j ⟨List.idxOf (0 : Fin 2) gd.startIndexMap,
      List.idxOf_lt_length_iff.2 (List.mem_singleton.mpr rfl)⟩ = ix3 (j 0) (j 1) (0 : Fin 1) := by
    funext a
    refine Fin.ext ?_
    match a with
    | ⟨0, _⟩ => rfl
    | ⟨1, _⟩ => rfl
    | ⟨2, _⟩ => rfl
  rw [hsi]
  rfl

/-- On the table's column axis the operand index is the result's offset coordinate: no start, no batching. -/
theorem gd_col (si : IVec S16384x32x1 32) (j : S16384x32x512.Idx) :
    (gd.operandIdx j si 1).val = (j 2).val := by
  show gd.start j si 1 + gd.batchCoord j 1 + gd.offCoord j 1 = _
  have h1 : (1 : Fin 2) ∉ gd.startIndexMap := fun h => absurd (List.mem_singleton.mp h) (by decide)
  have hk : (1 : Fin 2) ∈ gd.sKept :=
    (GatherDims.mem_sKept _ _).mpr ⟨fun h => absurd (List.mem_singleton.mp h) (by decide), List.not_mem_nil⟩
  rw [GatherDims.batchCoord_eq_zero _ _ _ List.not_mem_nil]
  unfold GatherDims.start GatherDims.offCoord
  rw [dif_neg h1, dif_pos hk]
  simp only [Nat.add_zero, Nat.zero_add]
  rfl

/-- THE ROW TAKE READ AT `(b, f, o)`: the table at the start index `start[b, f, 0]`, read signed and clamped into the
    table's rows, and at column `o`. The start's natural-number reading is a parameter `r`, so that a caller names it. -/
theorem gather_rows_apply (w : FVec Ideal S40960x512 .f32) (si : IVec S16384x32x1 32)
    (b : Fin 16384) (f : Fin 32) (o : Fin 512) (r : ℕ) (hr : (si (ix3 b f (0 : Fin 1))).toInt.toNat = r) :
    Host.gather gd w si (ix3 b f o) = w (ix2 ⟨min r 40959, by omega⟩ o) := by
  subst hr
  unfold Host.gather
  congr 1
  funext a
  refine Fin.ext ?_
  match a with
  | ⟨0, _⟩ => exact gd_row si (ix3 b f o)
  | ⟨1, _⟩ => exact gd_col si (ix3 b f o)

/-! ## The reference's result, as one function of its arguments -/

/-- What the reference computes: the term its run states for the result buffer, as a function of the four argument
    arrays (the generated stage-by-stage reading of that term). -/
def refOut (idx : IVec S16384x32 32) (val : FVec Ideal S16384x32 .f32) (w : FVec Ideal S40960x512 .f32)
    (bias : FVec Ideal S512 .f32) : FVec Ideal S16384x512 .f32 :=
  Read.val_main_v19 (F := Ideal) idx val w bias

/-- Every weakly fair execution of the reference ends with its result buffer at `refOut` of the arguments' launch
    contents, and the arguments unchanged. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v19)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (Read.val_main_v19_eq _ _ _ _), (h c).2⟩)
    (Cert.ReferenceIdeal.Value.run (F := Ideal) m ρ)

/-! ## The result read at an index -/

/-- The start index of the row take at feature `(b, f)`: the feature index's signed maximum with zero. -/
theorem safe_apply (idx : IVec S16384x32 32) (i : S16384x32.Idx) :
    Read.val_main_v9 (F := Ideal) idx i = IntOp.maxsi (idx i) 0#32 := by
  rw [Read.val_main_v9_apply, Read.val_main_v6_apply, Read.val_main_v4_apply, Read.val_main_v3_apply,
    Read.val_main_c_0_apply, Read.val_main_v5_apply, Read.val_main_c_1_apply, cmpi_slt_maxsi_zero, select_zero]

/-- The gathered row at `(b, f, o)`: the table at row `min (max idx[b, f] 0) 40959` and column `o`. -/
theorem gathered_apply (idx : IVec S16384x32 32) (w : FVec Ideal S40960x512 .f32)
    (b : Fin 16384) (f : Fin 32) (o : Fin 512) :
    Read.val_main_v11 (F := Ideal) idx w (ix3 b f o)
      = w (ix2 ⟨min (Cert.Spec.rowOf (idx (ix2 b f))) 40959, by omega⟩ o) := by
  unfold Read.val_main_v11
  refine gather_rows_apply w _ b f o _ ?_
  have hi : Read.idx_main_v10 (ix3 b f (0 : Fin 1)) = ix2 b f :=
    funext fun a => Fin.ext (by match a with | ⟨0, _⟩ => rfl | ⟨1, _⟩ => rfl)
  rw [Read.val_main_v10_apply, hi, safe_apply, maxsi_zero_rowOf]

/-- The broadcast weights at `(b, f, o)`: the feature's value times its mask. -/
theorem vals_apply (idx : IVec S16384x32 32) (val : FVec Ideal S16384x32 .f32)
    (b : Fin 16384) (f : Fin 32) (o : Fin 512) :
    Read.val_main_v14 (F := Ideal) idx val (ix3 b f o)
      = val (ix2 b f) * ((Cert.Spec.maskR (idx (ix2 b f)) : ℝ) : EReal) := by
  have hi : Read.idx_main_v13 (Read.idx_main_v14 (ix3 b f o)) = ix2 b f :=
    funext fun a => Fin.ext (by match a with | ⟨0, _⟩ => rfl | ⟨1, _⟩ => rfl)
  rw [Read.val_main_v14_apply, Read.val_main_v13_apply, hi, Read.val_main_v12_apply, Read.val_main_v2_apply,
    Read.val_main_v1_apply, Read.val_main_v0_apply, Read.val_main_c_apply, Ideal.mulf_def, uitofp_sge_zero]

/-- THE REFERENCE AT `(b, o)`: zero plus the sum over the 32 features of the table's entry at the feature's clamped
    row and column `o` times the feature's masked value, plus the bias at `o`. -/
theorem refOut_apply (idx : IVec S16384x32 32) (val : FVec Ideal S16384x32 .f32) (w : FVec Ideal S40960x512 .f32)
    (bias : FVec Ideal S512 .f32) (b : Fin 16384) (o : Fin 512) :
    refOut idx val w bias (ix2 b o)
      = (0 + ∑ f : Fin 32, w (ix2 ⟨min (Cert.Spec.rowOf (idx (ix2 b f))) 40959, by omega⟩ o)
            * (val (ix2 b f) * ((Cert.Spec.maskR (idx (ix2 b f)) : ℝ) : EReal))) + bias (ix1 o) := by
  have hb : Read.idx_main_v17 (Read.idx_main_v18 (ix2 b o)) = ix1 o :=
    funext fun a => Fin.ext (by match a with | ⟨0, _⟩ => rfl)
  have hk : ∀ f : Fin 32, Read.idx_main_v16 (ix2 b o) f = ix3 b f o := fun f =>
    funext fun a => Fin.ext (by match a with | ⟨0, _⟩ => rfl | ⟨1, _⟩ => rfl | ⟨2, _⟩ => rfl)
  unfold refOut
  rw [Read.val_main_v19_apply, Read.val_main_v16_apply, Read.val_main_cst_apply, Read.val_main_v18_apply,
    Read.val_main_v17_apply, hb, Ideal.addf_def, Ideal.ofBits_def, Ideal.ofBits_zero_f32]
  refine congrArg (· + bias (ix1 o)) (congrArg (0 + ·) (Finset.sum_congr rfl fun f _ => ?_))
  rw [hk f, Read.val_main_v15_apply, Ideal.mulf_def, gathered_apply, vals_apply]

end Cert.ReferenceIdeal.RefValue

end
-- ==== Proof.PreDecode.lean ====
/-
  The precondition, decoded. The printed precondition is the conjunction of four "for all entries" tests: the absolute
  value of every entry of the feature values, of the weight table and of the bias is strictly below +∞, and every feature
  index, read as a signed integer, is below 40960. Each test is a reduction by `and` of a one-bit array from the constant 1,
  and the four results are joined by `and`; the claim is that the joined bit is 1.

  Over the extended reals `|x| < +∞` excludes both infinities (`|+∞| = |-∞| = +∞`), so it says exactly that `x` is a real
  number; and a signed word comparison that came out 1 is the inequality of the two signed values.
-/
import proofs.«422430_j16441134809367_3_alg».proof.Pre_finite_inputs
import proofs.«422430_j16441134809367_3_alg».proof.Proof.Gen.Pre_finite_inputs
import proofs.«422430_j16441134809367_3_alg».proof.Proof.Spec
import Idealize.ShloMosaic.Lib.ReduceAll
import Idealize.ShloMosaic.Lib.StableHlo.Predicate
import Idealize.ShloMosaic.Lib.ValueIdx
import Idealize.ShloMosaic.PureOps.Ideal

namespace Cert.PreDecode

open Idealize.ShloMosaic

/-- The shape of a scalar has exactly one index (the empty tuple of coordinates). -/
instance : Subsingleton Cert.Pre_finite_inputs.S_.Idx := ⟨fun a b => funext fun d => d.elim0⟩

/-- An extended real whose absolute value `max x (-x)` is strictly below +∞ is a real number: at `x = +∞` the maximum is
    `+∞` itself, and at `x = -∞` it is `-(-∞) = +∞`. -/
theorem real_of_abs_lt_top (x : EReal) (h : max x (-x) < ⊤) : ∃ r : ℝ, x = (r : EReal) := by
  induction x using EReal.rec with
  | bot => simp at h
  | coe r => exact ⟨r, rfl⟩
  | top => simp at h

/-- One entry of a finiteness test: the bit pattern `0x7F800000` (sign 0, exponent all ones, significand 0) denotes +∞,
    so the ordered comparison `|x| < 0x7F800000` being 1 says `max x (-x) < +∞`, hence `x` is real. -/
theorem real_of_cmp (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  refine real_of_abs_lt_top x ?_
  by_contra hn
  simp [hn] at h

/-- The precondition read back: every feature value, every weight and every bias entry is a real number, and every feature
    index is, as a signed integer, below 40960.

    The joined bit being 1 splits into the four reduced bits being 1 (`a &&& b = 1` on one-bit words iff both are 1); a
    reduction by `and` over all axes that is 1 had a 1 at every entry; and each entry's bit is read by the two lemmas above,
    respectively by the signed comparison against the constant word 40960, whose signed value is 40960. -/
theorem of_pre (idx : IVec Cert.Pre_finite_inputs.S16384x32 32) (val : FVec Ideal Cert.Pre_finite_inputs.S16384x32 .f32)
    (w : FVec Ideal Cert.Pre_finite_inputs.S40960x512 .f32) (bias : FVec Ideal Cert.Pre_finite_inputs.S512 .f32)
    (h : Cert.Pre_finite_inputs.fn (F := Ideal) idx val w bias = fun _ => 1#1) :
    (∀ i, ∃ x : ℝ, val i = (x : EReal)) ∧ (∀ i, ∃ x : ℝ, w i = (x : EReal)) ∧ (∀ i, ∃ x : ℝ, bias i = (x : EReal))
      ∧ (∀ i, (idx i).toInt < 40960) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact real_of_cmp (val i) (Host.reduce_andi_all _ _ _ _ _ h1 i)
  · exact real_of_cmp (w i) (Host.reduce_andi_all _ _ _ _ _ h2 i)
  · exact real_of_cmp (bias i) (Host.reduce_andi_all _ _ _ _ _ h3 i)
  · have e := IntOp.cmpi_slt.1 (Host.reduce_andi_all _ _ _ _ _ h4 i)
    have hc : (40960#32 : BitVec 32).toInt = 40960 := by decide
    exact hc ▸ e

end Cert.PreDecode
-- ==== Proof.lean ====
/-
  The certificate of the blocked one-hot embedding-bag kernel against its gather-and-sum reference.

  The reference computes, for a batch row `b` and an output column `o`,
  `(0 + ∑ f < 32, weight[clamp(max(idx[b,f], 0)), o] · (val[b,f] · [idx[b,f] ≥ 0])) + bias[o]`, the gather clamping a row
  number into the table. The kernel never gathers: it walks the table in 80 tiles of 512 rows and, per tile, builds a
  one-hot "bag" `[rows, 512]` whose entry `(b, j)` collects the masked values of the features of row `b` that point at
  row `512 k + j`, multiplies the bag into the tile on the matrix unit and accumulates the products in the output
  block across the tiles, adding the bias after the last one. Over the extended reals the two agree exactly when every
  value is a real number (so that the product distributes over the bag) and every feature index is below the table's
  40960 rows (a larger index is clamped to the last row by the reference and meets no tile in the kernel): that is the
  precondition. Then each side is the real number `(0 + ∑ f, W (a f) · u f) + bias`, `a f` the row feature `f` points at
  and `u f` its masked value; the kernel's side reaches it by swapping the sums over tiles, tile columns and features
  and collapsing the one-hot (`Cert.OneHot.collapse`).

  The modules: `OneHot` (the arithmetic), `Chunk` (one 256-row chunk of the body), `Trip` (the in-kernel loop over the
  sixteen chunks of a block), `Cases` (the body's three cases: first, middle and last tile), `Acc` (the running sum over
  the grid and the result array), `Blocks` (the input blocks as entries of the argument arrays), `Scalars` and `BagReal`
  (words and bags as numbers), `Bridge` (the kernel's result in real numbers), `RefValue` (the reference's result at an
  index), `PreDecode` (what the precondition says of the entries). The three frame claims are the runs themselves with
  the results forgotten; the idealization rewrote nothing, so `preserves` is trivial.
-/
import proofs.«422430_j16441134809367_3_alg».proof.Defs
import proofs.«422430_j16441134809367_3_alg».proof.Proof.Gen.Kernel
import proofs.«422430_j16441134809367_3_alg».proof.Proof.Gen.KernelIdeal
import proofs.«422430_j16441134809367_3_alg».proof.Proof.Gen.ReferenceIdeal
import proofs.«422430_j16441134809367_3_alg».proof.Proof.Gen.Pre_finite_inputs
import proofs.«422430_j16441134809367_3_alg».proof.Proof.KernelFrame
import proofs.«422430_j16441134809367_3_alg».proof.Proof.KernelIdealFrame
import proofs.«422430_j16441134809367_3_alg».proof.Proof.Bridge
import proofs.«422430_j16441134809367_3_alg».proof.Proof.RefValue
import proofs.«422430_j16441134809367_3_alg».proof.Proof.PreDecode
import Idealize.ShloMosaic.Adequacy
import Idealize.ShloMosaic.Init

set_option maxRecDepth 16384

noncomputable section

namespace Cert.Proof

open Idealize.ShloMosaic Idealize.SL.Sem Idealize.ShloMosaic.ValueIdx

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.RefValue.run_ref m ρ)

theorem preserves : Cert.preserves_Kernel_KernelIdeal := trivial

/-- The idealized kernel's run, read: the result array ends at `kerOut` (row `b`: the running sum after the last tile of
    its block of rows), the four arguments as they were. -/
theorem run_ker (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v1) = Cert.KernelIdeal.Acc.kerOut m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun _ h c =>
    ⟨((h c).1 4).trans (Cert.KernelIdeal.Acc.final m c),
      ((h c).1 0).trans (((Cert.KernelIdeal.GenP.dats m 0 c).arrAt_in 0 rfl _).trans ((Cert.KernelIdeal.GenP.A_eq m c 0).trans (Cert.KernelIdeal.Gen.V_main_arg0 m c))),
      ((h c).1 1).trans (((Cert.KernelIdeal.GenP.dats m 0 c).arrAt_in 1 rfl _).trans ((Cert.KernelIdeal.GenP.A_eq m c 1).trans (Cert.KernelIdeal.Gen.V_main_arg1 m c))),
      ((h c).2 Cert.KernelIdeal.main_arg2 (Pipeline.mem_restRefs_of Cert.KernelIdeal.main_arg2 (by decide) (by decide))).trans (Cert.KernelIdeal.Gen.V_main_arg2 m c),
      ((h c).1 3).trans (((Cert.KernelIdeal.GenP.dats m 0 c).arrAt_in 3 rfl _).trans ((Cert.KernelIdeal.GenP.A_eq m c 3).trans (Cert.KernelIdeal.Gen.V_main_arg3 m c)))⟩)
    (Cert.KernelIdeal.GenP.run_main m ρ)

/-- Both idealized programs end with equal results: each entry is the same real number, the gathered rows' weighted sum
    plus the bias. -/
theorem algebraic : Cert.algebraic_KernelIdeal_ReferenceIdeal := by
  intro m ρ m' ρ' hpre hagree
  refine ⟨fun c => Cert.KernelIdeal.Acc.kerOut m c, run_ker m ρ, ?_⟩
  refine (θ_run Cert.ReferenceIdeal.defs _ _).mono (fun _ h c => ⟨(h c).1.trans ?_, (h c).2⟩)
    (Cert.ReferenceIdeal.RefValue.run_ref m' ρ')
  rw [(hagree c).1, (hagree c).2.1, (hagree c).2.2.1, (hagree c).2.2.2]
  obtain ⟨hv, hw, hb, hi⟩ := Cert.PreDecode.of_pre _ _ _ _ (hpre c)
  choose val' hval using hv
  choose w' hw' using hw
  choose bias' hbias using hb
  funext y
  obtain ⟨b, o, rfl⟩ : ∃ (b : Fin 16384) (o : Fin 512), y = ix2 b o := ⟨y 0, y 1, eq_ix2 y⟩
  rw [Cert.ReferenceIdeal.RefValue.refOut_apply]
  exact (Cert.KernelIdeal.Bridge.ref_real m c val' w' bias' hval hw' hbias hi b o).trans
    (Cert.KernelIdeal.Bridge.kerOut_eq m c val' w' bias' hval hw' hbias hi b o).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
